-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128x128 : Shape := ⟨4, ![8, 512, 128, 128]⟩
abbrev S128x512 : Shape := ⟨2, ![128, 512]⟩
abbrev S512x128 : Shape := ⟨2, ![512, 128]⟩
abbrev S512 : Shape := ⟨1, ![512]⟩
abbrev S_ : Shape := ⟨0, ![]⟩

class Facts : Prop where
  bcast_S_S8x512x128x128 : S_.BroadcastsInDim S8x512x128x128 (![] : Fin 0 → Fin S8x512x128x128.rank)
  reducesTo_S8x512x128x128_S_d0_1_2_3 : S8x512x128x128.ReducesTo [0, 1, 2, 3] S_
  h_S_ : 0 < S_.numel
  bcast_S_S128x512 : S_.BroadcastsInDim S128x512 (![] : Fin 0 → Fin S128x512.rank)
  reducesTo_S128x512_S_d0_1 : S128x512.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_arg6 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8x512x128x128 .f32) (main_arg1 : FVec F S128x512 .f32) (main_arg2 : FVec F S512x128 .f32) (main_arg3 : FVec F S512 .f32) (main_arg4 : FVec F S512 .f32) (main_arg5 : FVec F S512 .f32) (main_arg6 : FVec F S512 .f32) : IVec S_ 1 :=
  let main_v0 : FVec F S8x512x128x128 .f32 := Host.absf main_arg0
  let main_cst : FVec F S_ .f32 := constant S_ .f32 0x7F800000#32
  let main_v1 : FVec F S8x512x128x128 .f32 := broadcastInDim S8x512x128x128 ![] bcast_S_S8x512x128x128 main_cst
  let main_v2 : IVec S8x512x128x128 1 := cmpf .olt main_v0 main_v1
  let main_c : IVec S_ 1 := constantI S_ 1 1#1
  let main_v3 : IVec S_ 1 := (fun x v => Host.reduce IntOp.andi x v reducesTo_S8x512x128x128_S_d0_1_2_3 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_v13 main_v16
-- ==== Kernel.lean ====
abbrev S8x512x128x128 : Shape := ⟨4, ![8, 512, 128, 128]⟩
abbrev S128x512 : Shape := ⟨2, ![128, 512]⟩
abbrev S512x128 : Shape := ⟨2, ![512, 128]⟩
abbrev S512 : Shape := ⟨1, ![512]⟩
abbrev S8x512 : Shape := ⟨2, ![8, 512]⟩
abbrev S8x128x8x128 : Shape := ⟨4, ![8, 128, 8, 128]⟩
abbrev S8x128 : Shape := ⟨2, ![8, 128]⟩
abbrev S8x128x8 : Shape := ⟨3, ![8, 128, 8]⟩
abbrev S_ : Shape := ⟨0, ![]⟩
abbrev S1x512 : Shape := ⟨2, ![1, 512]⟩
abbrev S8x128x1x1 : Shape := ⟨4, ![8, 128, 1, 1]⟩

abbrev nBuf : Space → Nat
  | .hbm => 43
  | .vmem => 11
  | .smem => 0
  | _ => 0

abbrev bufTy : (tb : Table) → Fin (tcTables nBuf tb) → BufTy
  | .hbm, ⟨0, _⟩ => ⟨S8x512x128x128, .f32⟩
  | .hbm, ⟨1, _⟩ => ⟨S128x512, .f32⟩
  | .hbm, ⟨2, _⟩ => ⟨S512x128, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S8x512, .f32⟩
  | .hbm, ⟨8, _⟩ => ⟨S8x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x128, .f32⟩
  | .hbm, ⟨13, _⟩ => ⟨S8x128, .f32⟩
  | .hbm, ⟨14, _⟩ => ⟨S_, .f32⟩
  | .hbm, ⟨15, _⟩ => ⟨S8x128, .f32⟩
  | .hbm, ⟨16, _⟩ => ⟨S8x128, .f32⟩
  | .hbm, ⟨17, _⟩ => ⟨S8x512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S1x512, .f32⟩
  | .hbm, ⟨23, _⟩ => ⟨S8x512, .f32⟩
  | .hbm, ⟨24, _⟩ => ⟨S8x512, .f32⟩
  | .hbm, ⟨25, _⟩ => ⟨S1x512, .f32⟩
  | .hbm, ⟨26, _⟩ => ⟨S8x512, .f32⟩
  | .hbm, ⟨27, _⟩ => ⟨S8x512, .f32⟩
  | .hbm, ⟨28, _⟩ => ⟨S1x512, .f32⟩
  | .hbm, ⟨29, _⟩ => ⟨S8x512, .f32⟩
  | .hbm, ⟨30, _⟩ => ⟨S8x512, .f32⟩
  | .hbm, ⟨31, _⟩ => ⟨S1x512, .f32⟩
  | .hbm, ⟨32, _⟩ => ⟨S8x512, .f32⟩
  | .hbm, ⟨33, _⟩ => ⟨S8x512, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8x512, .f32⟩
  | .hbm, ⟨38, _⟩ => ⟨S8x512, .f32⟩
  | .hbm, ⟨39, _⟩ => ⟨S_, .f32⟩
  | .hbm, ⟨40, _⟩ => ⟨S8x512, .f32⟩
  | .hbm, ⟨41, _⟩ => ⟨S8x512, .f32⟩
  | .hbm, ⟨42, _⟩ => ⟨S8x512x128x128, .f32⟩
  | .local _ .vmem, ⟨0, _⟩ => ⟨S8x128x8x128, .f32⟩
  | .local _ .vmem, ⟨1, _⟩ => ⟨S8x128x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128x8x128, .f32⟩
  | .local _ .vmem, ⟨6, _⟩ => ⟨S8x128x8x128, .f32⟩
  | .local _ .vmem, ⟨7, _⟩ => ⟨S8x128, .f32⟩
  | .local _ .vmem, ⟨8, _⟩ => ⟨S8x128, .f32⟩
  | .local _ .vmem, ⟨9, _⟩ => ⟨S8x128x8x128, .f32⟩
  | .local _ .vmem, ⟨10, _⟩ => ⟨S8x128x8x128, .f32⟩
  | _, _ => ⟨S8x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v19 : Ref sig .tc := ⟨.hbm, 41, rfl⟩
abbrev main_v20 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_9 : BitVec 32 := 0#32
  let v13 : BitVec 1 := Scalar.cmpi .ne v12 c0_i32_9
  v13

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x128x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage1_0 : Fin 2 → Memref sig .tc .vmem S8x128x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x128x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x128x8x128_S8x128x8x128_0_0_0_0 : ∀ a, (![0, 0, 0, 0] : Fin 4 → Nat) a + S8x128x8x128.size a ≤ S8x128x8x128.size a
  h_S8x128x8x128 : 0 < S8x128x8x128.numel
  reduces_S8x128x8x128_S8x128x8 : S8x128x8x128.Reduces [3] S8x128x8
  reduces_S8x128x8_S8x128 : S8x128x8.Reduces [2] S8x128
  bcast_S_S8x128 : S_.BroadcastsInDim S8x128 (![] : Fin 0 → Fin S8x128.rank)
  bcast_S_S512 : S_.BroadcastsInDim S512 (![] : Fin 0 → Fin S512.rank)
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S_S8x512 : S_.BroadcastsInDim S8x512 (![] : Fin 0 → Fin S8x512.rank)
  shapeCasts_S8x128_S8x128x1x1 : S8x128.ShapeCasts S8x128x1x1
  broadcasts_S8x128x1x1_S8x128x8x128 : S8x128x1x1.Broadcasts S8x128x8x128
  dot_S8x512_S128x512_S8x128_1_1_0_0_n_n_wf : DotDims.WF S8x512 S128x512 S8x128 [1] [1] [0] [0] [] []
  dot_S8x128_S512x128_S8x512_1_1_0_0_n_n_wf : DotDims.WF S8x128 S512x128 S8x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x8x128.size a ≤ S8x512x128x128.size a
  hwx0_0 : ∀ i : grid0.Coords, EltTy.bits .f32 = 32 ∨ (Rect.block (s := S8x512x128x128) S8x128x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x512.size a
  hwx0_1 : ∀ i : grid0.Coords, EltTy.bits .f32 = 32 ∨ (Rect.block (s := S8x512) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x8x128.size a ≤ S8x512x128x128.size a
  hwx1_0 : ∀ i : grid1.Coords, EltTy.bits .f32 = 32 ∨ (Rect.block (s := S8x512x128x128) S8x128x8x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S8x512.size a
  hwx1_1 : ∀ i : grid1.Coords, EltTy.bits .f32 = 32 ∨ (Rect.block (s := S8x512) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128x8x128.size a ≤ S8x512x128x128.size a
  hwx1_2 : ∀ i : grid1.Coords, EltTy.bits .f32 = 32 ∨ (Rect.block (s := S8x512x128x128) S8x128x8x128.size (cc1_transform_2 i) (hinb1_2 i)).WholeWords (EltTy.packing .f32)

variable [Facts₀]

def dot_S8x512_S128x512_S8x128_1_1_0_0_n_n : DotDims S8x512 S128x512 S8x128 where
  lhsContracting := [1]
  rhsContracting := [1]
  lhsNonContracting := [0]
  rhsNonContracting := [0]
  lhsBatch := []
  rhsBatch := []
  wf := dot_S8x512_S128x512_S8x128_1_1_0_0_n_n_wf
def dot_S8x128_S512x128_S8x512_1_1_0_0_n_n : DotDims S8x128 S512x128 S8x512 where
  lhsContracting := [1]
  rhsContracting := [1]
  lhsNonContracting := [0]
  rhsNonContracting := [0]
  lhsBatch := []
  rhsBatch := []
  wf := dot_S8x128_S512x128_S8x512_1_1_0_0_n_n_wf

abbrev win0_0 : Pipeline.Window sig grid0 :=
  Pipeline.Window.ofSpec (Memref.whole main_arg0) S8x128x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S8x128x8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S8x128x8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x512x128x128 : Shape := ⟨4, ![8, 512, 128, 128]⟩
abbrev S128x512 : Shape := ⟨2, ![128, 512]⟩
abbrev S512x128 : Shape := ⟨2, ![512, 128]⟩
abbrev S512 : Shape := ⟨1, ![512]⟩
abbrev S_ : Shape := ⟨0, ![]⟩
abbrev S8x512 : Shape := ⟨2, ![8, 512]⟩
abbrev S8x128 : Shape := ⟨2, ![8, 128]⟩
abbrev S1x512 : Shape := ⟨2, ![1, 512]⟩
abbrev S8x512x1x1 : Shape := ⟨4, ![8, 512, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S8x512x128x128, .f32⟩
  | .hbm, ⟨1, _⟩ => ⟨S128x512, .f32⟩
  | .hbm, ⟨2, _⟩ => ⟨S512x128, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S_, .f32⟩
  | .hbm, ⟨8, _⟩ => ⟨S8x512, .f32⟩
  | .hbm, ⟨9, _⟩ => ⟨S_, .f32⟩
  | .hbm, ⟨10, _⟩ => ⟨S8x512, .f32⟩
  | .hbm, ⟨11, _⟩ => ⟨S8x512, .f32⟩
  | .hbm, ⟨12, _⟩ => ⟨S8x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x128, .f32⟩
  | .hbm, ⟨17, _⟩ => ⟨S8x128, .f32⟩
  | .hbm, ⟨18, _⟩ => ⟨S_, .f32⟩
  | .hbm, ⟨19, _⟩ => ⟨S8x128, .f32⟩
  | .hbm, ⟨20, _⟩ => ⟨S8x128, .f32⟩
  | .hbm, ⟨21, _⟩ => ⟨S8x512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S1x512, .f32⟩
  | .hbm, ⟨27, _⟩ => ⟨S8x512, .f32⟩
  | .hbm, ⟨28, _⟩ => ⟨S8x512, .f32⟩
  | .hbm, ⟨29, _⟩ => ⟨S1x512, .f32⟩
  | .hbm, ⟨30, _⟩ => ⟨S8x512, .f32⟩
  | .hbm, ⟨31, _⟩ => ⟨S8x512, .f32⟩
  | .hbm, ⟨32, _⟩ => ⟨S1x512, .f32⟩
  | .hbm, ⟨33, _⟩ => ⟨S8x512, .f32⟩
  | .hbm, ⟨34, _⟩ => ⟨S8x512, .f32⟩
  | .hbm, ⟨35, _⟩ => ⟨S1x512, .f32⟩
  | .hbm, ⟨36, _⟩ => ⟨S8x512, .f32⟩
  | .hbm, ⟨37, _⟩ => ⟨S8x512, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8x512, .f32⟩
  | .hbm, ⟨42, _⟩ => ⟨S8x512, .f32⟩
  | .hbm, ⟨43, _⟩ => ⟨S_, .f32⟩
  | .hbm, ⟨44, _⟩ => ⟨S8x512, .f32⟩
  | .hbm, ⟨45, _⟩ => ⟨S8x512, .f32⟩
  | .hbm, ⟨46, _⟩ => ⟨S8x512x1x1, .f32⟩
  | .hbm, ⟨47, _⟩ => ⟨S8x512x128x128, .f32⟩
  | .hbm, ⟨48, _⟩ => ⟨S8x512x128x128, .f32⟩
  | _, _ => ⟨S8x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v4 : Ref sig .tc := ⟨.hbm, 20, rfl⟩
abbrev main_v5 : Ref sig .tc := ⟨.hbm, 21, rfl⟩
abbrev main_cst_3 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩

abbrev nD : Nat := 1
abbrev τ : Topo := Topo.v7x

variable {F : FTy → Type} [FloatOps F]

class Facts₀ : Prop where
  reducesTo_S8x512x128x128_S8x512_d2_3 : S8x512x128x128.ReducesTo [2, 3] S8x512
  h_S_ : 0 < S_.numel
  bcast_S_S8x512 : S_.BroadcastsInDim S8x512 (![] : Fin 0 → Fin S8x512.rank)
  bcast_S_S8x128 : S_.BroadcastsInDim S8x128 (![] : Fin 0 → Fin S8x128.rank)
  bcast_S_S512 : S_.BroadcastsInDim S512 (![] : Fin 0 → Fin S512.rank)
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S8x512_S8x512x1x1_0_1 : S8x512.BroadcastsInDim S8x512x1x1 (![0, 1] : Fin 2 → Fin S8x512x1x1.rank)
  bcast_S8x512x1x1_S8x512x128x128_0_1_2_3 : S8x512x1x1.BroadcastsInDim S8x512x128x128 (![0, 1, 2, 3] : Fin 4 → Fin S8x512x128x128.rank)
  dot_S8x512_S128x512_S8x128_1_1_0_0_n_n_wf : DotDims.WF S8x512 S128x512 S8x128 [1] [1] [0] [0] [] []
  dot_S8x128_S512x128_S8x512_1_1_0_0_n_n_wf : DotDims.WF S8x128 S512x128 S8x512 [1] [1] [0] [0] [] []

variable [Facts₀]

def dot_S8x512_S128x512_S8x128_1_1_0_0_n_n : DotDims S8x512 S128x512 S8x128 where
  lhsContracting := [1]
  rhsContracting := [1]
  lhsNonContracting := [0]
  rhsNonContracting := [0]
  lhsBatch := []
  rhsBatch := []
  wf := dot_S8x512_S128x512_S8x128_1_1_0_0_n_n_wf
def dot_S8x128_S512x128_S8x512_1_1_0_0_n_n : DotDims S8x128 S512x128 S8x512 where
  lhsContracting := [1]
  rhsContracting := [1]
  lhsNonContracting := [0]
  rhsNonContracting := [0]
  lhsBatch := []
  rhsBatch := []
  wf := dot_S8x128_S512x128_S8x512_1_1_0_0_n_n_wf

class Facts : Prop extends Facts₀ where

variable [Facts]
-- ==== Proof.KI.Region0.lean ====
/-
  The first kernel region (the spatial sum) of the program, at ANY contents `V` of the TensorCore's buffers at the
  region's entry. The grid is 4 x 16: the first coordinate picks a block of 128 channels, the second a slab of 8
  rows of the 128 x 128 plane. At a point the body adds the slab's sum (over its 8 rows and 128 columns) into a
  scratch accumulator of shape 8 x 128 (samples x channels of the block); at the first slab of a channel block it
  first resets the accumulator to zero, and at the last slab it writes the accumulator times 2^-14 into the output
  block. So there are three kinds of point — reset (slab 0), plain (slabs 1 to 14), write-out (slab 15) — and the
  scratch is carried from each point to the next. The proof data say what the scratch holds after every point
  (by recursion on the point) and what the output block holds at the write-out points; the output window is idle
  at the other points and handed back as found.
-/
import proofs.«167002_j68032281969033_1_alg».proof.Proof.Gen.KernelIdeal.Launch
import proofs.«167002_j68032281969033_1_alg».proof.Proof.Gen.KernelIdeal.Skeleton
import proofs.«167002_j68032281969033_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the point's slab at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- "This is the first slab of its channel block": the reset condition. -/
abbrev condR (i : grid0.Coords) : Prop := (Scalar.cmpi .ne (Scalar.extui (Scalar.cmpi .eq (BitVec.ofNat 32 (i 1).val) 0#32)) 0#32) = 1#1
theorem hcondR : ∀ t : Fin cfg0.N, condR (grid0.coords t) ↔ t.val % 16 = 0 :=
  (by decide +kernel : ∀ t : Fin grid0.N, condR (grid0.coords t) ↔ t.val % 16 = 0)

/-- "This is the last slab of its channel block": the write-out condition. -/
abbrev condL (i : grid0.Coords) : Prop := k0_cond2 i = 1#1
theorem hcondL : ∀ t : Fin cfg0.N, condL (grid0.coords t) ↔ t.val % 16 = 15 :=
  (by decide +kernel : ∀ t : Fin grid0.N, condL (grid0.coords t) ↔ t.val % 16 = 15)

/-- The input window is never idle; the output window is idle, and not written back, exactly off the write-out points. -/
theorem liveAt0_0 : ∀ t : Fin cfg0.N, cfg0.idle 0 (grid0.coords t) = false := by decide +kernel
theorem idleAt0_1 : ∀ t : Fin cfg0.N, ¬condL (grid0.coords t) → cfg0.idle 1 (grid0.coords t) = true := by decide +kernel
theorem noFlush0_1 : ∀ t : Fin cfg0.N, ¬condL (grid0.coords t) → (cfg0.win 1).flush t = false := by decide +kernel
theorem liveAt0_1 : ∀ t : Fin cfg0.N, condL (grid0.coords t) → cfg0.idle 1 (grid0.coords t) = false := by decide +kernel

/-! ## The memrefs the body is called with -/

abbrev ms0_0 (t : Fin cfg0.N) : Memref sig .tc .vmem S8x128x8x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
/-- The accumulator. -/
abbrev scM0 : Memref sig .tc .vmem S8x128 .f32 := Memref.whole cc0_scratch0
/-- Views through which the output block's and the accumulator's contents are stated. -/
abbrev VO0 : View sig .tc .vmem S8x128 .f32 := (Memref.whole cc0_stg1_0 : Memref sig .tc .vmem S8x128 .f32).view
abbrev VS0 : View sig .tc .vmem S8x128 .f32 := scM0.view

/-- The scoped buffers of the core that are neither staging buffers of this region nor the accumulator (the other
    region's staging buffers), each at anything: they ride along untouched. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's plain invariant, with the accumulator as a memref owned at some contents. -/
theorem PhiA0_eq (c : Dev nD) :
    (Pipeline.ΦA spec0 c : sProp 𝕄)
      = iprop(iprop((∃ d, owns (c : Thread nD τ) scM0 fullShare d) ∗ restS (F := F) c) ∗ (∃ r, prngReg c r)) := by
  unfold Pipeline.ΦA restS; rw [scopedRest0_eq]; simp only [scM0, owns_whole]; try rfl

/-! ## The body on any staging memrefs, case by case -/

set_option maxHeartbeats 1000000 in
/-- RESET points: the accumulator is stored twice (zero, then zero plus the slab's sum); the output is untouched. -/
noncomputable def kernelRun0_A (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : condR i) (hL : ¬condL i)
    (x0 : Vec F S8x128x8x128 .f32) :
    { LS : List (View.Piece (Elt F) S8x128 .f32) //
      ∀ (xi1 : Vec F S8x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS)) -∗ K ⟨⟩))
          ⊢ wp frame (wpE (defs₀ (F := F)) Variants.none c none) E (cc0_mean_kernel i arg2 harg2 arg3 harg3 arg4 harg4) K } := by
  refine ⟨?_, fun xi1 E K => ?run⟩
  case run =>
    simp only [cc0_mean_kernel_eq_skeleton]; unfold cc0_mean_kernel_skel
    unfold owns
    iintro ⟨⟨%f0, %hf0, H0⟩, ⟨%f1, %hf1, H1⟩, ⟨%ds, %fs0, -, HS0⟩, Hk⟩
    obtain rfl := harg2.eq_unread hf0; obtain rfl := harg3.eq_unread hf1
    sl_exec (disch := first | exact hR | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- PLAIN points: the accumulator, found at `xs0`, is stored once (`xs0` plus the slab's sum); the output is untouched. -/
noncomputable def kernelRun0_B (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : ¬condR i) (hL : ¬condL i)
    (x0 : Vec F S8x128x8x128 .f32) (xs0 : Vec F S8x128 .f32) :
    { LS : List (View.Piece (Elt F) S8x128 .f32) //
      ∀ (xi1 : Vec F S8x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS)) -∗ K ⟨⟩))
          ⊢ wp frame (wpE (defs₀ (F := F)) Variants.none c none) E (cc0_mean_kernel i arg2 harg2 arg3 harg3 arg4 harg4) K } := by
  refine ⟨?_, fun xi1 E K => ?run⟩
  case run =>
    simp only [cc0_mean_kernel_eq_skeleton]; unfold cc0_mean_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hR | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- WRITE-OUT points: the accumulator, found at `xs0`, is stored once, read back, and its 2^-14 multiple stored into
    the output block. -/
noncomputable def kernelRun0_C (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : ¬condR i) (hL : condL i)
    (x0 : Vec F S8x128x8x128 .f32) (xs0 : Vec F S8x128 .f32) :
    Σ' (L1 : List (View.Piece (Elt F) S8x128 .f32)), { LS : List (View.Piece (Elt F) S8x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0_mean_kernel i arg2 harg2 arg3 harg3 arg4 harg4) K } := by
  refine ⟨?_, ?_, fun E K => ?run⟩
  case run =>
    simp only [cc0_mean_kernel_eq_skeleton]; unfold cc0_mean_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hR | exact hL)
    sl_step
    iapply Hk
    isplitl [H0]
    · iexists _; isplitr; · ipureintro; exact harg2.read_unread _
      iexact H0
    isplitl [H1]
    · iexists _; iexact H1
    iexists _; iexact HS0

/-! ## What each case leaves in the accumulator and in the output block -/

/-- The accumulator's pieces at a reset point cover it. -/
theorem scover0_A (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : condR i) (hL : ¬condL i)
    (x0 : Vec F S8x128x8x128 .f32) (y : S8x128.Idx) :
    ∃ pc ∈ (kernelRun0_A c i arg2 harg2 arg3 harg3 arg4 harg4 hR hL x0).1, y ∈ pc.1.set :=
  View.cover_of_tiledL (kernelRun0_A c i arg2 harg2 arg3 harg3 arg4 harg4 hR hL x0).1 S8x128.size (by sl_kernel_rfl) y

/-- What a reset point leaves in the accumulator. -/
def sout0_A (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : condR i) (hL : ¬condL i)
    (x0 : Vec F S8x128x8x128 .f32) : Vec F S8x128 .f32 :=
  VS0.read (Elt F) (VS0.writes (Elt F) VS0.junk (kernelRun0_A c i arg2 harg2 arg3 harg3 arg4 harg4 hR hL x0).1)

theorem scover0_B (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : ¬condR i) (hL : ¬condL i)
    (x0 : Vec F S8x128x8x128 .f32) (xs0 : Vec F S8x128 .f32) (y : S8x128.Idx) :
    ∃ pc ∈ (kernelRun0_B c i arg2 harg2 arg3 harg3 arg4 harg4 hR hL x0 xs0).1, y ∈ pc.1.set :=
  View.cover_of_tiledL (kernelRun0_B c i arg2 harg2 arg3 harg3 arg4 harg4 hR hL x0 xs0).1 S8x128.size (by sl_kernel_rfl) y

/-- What a plain point leaves in the accumulator, over what the point before left. -/
def sout0_B (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : ¬condR i) (hL : ¬condL i)
    (x0 : Vec F S8x128x8x128 .f32) (xs0 : Vec F S8x128 .f32) : Vec F S8x128 .f32 :=
  VS0.read (Elt F) (VS0.writes (Elt F) VS0.junk (kernelRun0_B c i arg2 harg2 arg3 harg3 arg4 harg4 hR hL x0 xs0).1)

theorem cover0_C (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : ¬condR i) (hL : condL i)
    (x0 : Vec F S8x128x8x128 .f32) (xs0 : Vec F S8x128 .f32) (y : S8x128.Idx) :
    ∃ pc ∈ (kernelRun0_C c i arg2 harg2 arg3 harg3 arg4 harg4 hR hL x0 xs0).1, y ∈ pc.1.set :=
  View.cover_of_tiledL (kernelRun0_C c i arg2 harg2 arg3 harg3 arg4 harg4 hR hL x0 xs0).1 S8x128.size (by sl_kernel_rfl) y

/-- What a write-out point leaves in the output block. -/
def out0_C (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : ¬condR i) (hL : condL i)
    (x0 : Vec F S8x128x8x128 .f32) (xs0 : Vec F S8x128 .f32) : Vec F S8x128 .f32 :=
  VO0.read (Elt F) (VO0.writes (Elt F) VO0.junk (kernelRun0_C c i arg2 harg2 arg3 harg3 arg4 harg4 hR hL x0 xs0).1)

theorem scover0_C (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : ¬condR i) (hL : condL i)
    (x0 : Vec F S8x128x8x128 .f32) (xs0 : Vec F S8x128 .f32) (y : S8x128.Idx) :
    ∃ pc ∈ (kernelRun0_C c i arg2 harg2 arg3 harg3 arg4 harg4 hR hL x0 xs0).2.1, y ∈ pc.1.set :=
  View.cover_of_tiledL (kernelRun0_C c i arg2 harg2 arg3 harg3 arg4 harg4 hR hL x0 xs0).2.1 S8x128.size (by sl_kernel_rfl) y

/-- What a write-out point leaves in the accumulator. -/
def sout0_C (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : ¬condR i) (hL : condL i)
    (x0 : Vec F S8x128x8x128 .f32) (xs0 : Vec F S8x128 .f32) : Vec F S8x128 .f32 :=
  VS0.read (Elt F) (VS0.writes (Elt F) VS0.junk (kernelRun0_C c i arg2 harg2 arg3 harg3 arg4 harg4 hR hL x0 xs0).2.1)

/-- The output block where the body stores nothing: contents nothing consults. -/
def idleOut : Vec F S8x128 .f32 := VO0.read (Elt F) VO0.junk

/-! ## The accumulation, point by point -/

/-- What the output block and the accumulator hold after the body at position `n` (a pair): by the kind of the
    point, the accumulator of a plain or write-out point over what the point before left. -/
def outsAt0 (c : Dev nD) : (n : ℕ) → n < cfg0.N → Vec F S8x128 .f32 × Vec F S8x128 .f32
  | 0, hn => (idleOut, sout0_A c (grid0.coords ⟨0, hn⟩) (ms0_0 ⟨0, hn⟩) (hs0_0 ⟨0, hn⟩) (ms0_1 ⟨0, hn⟩) (hs0_1 ⟨0, hn⟩) scM0 (Memref.isWhole_whole _) ((hcondR ⟨0, hn⟩).mpr (Nat.zero_mod _)) (fun h => (fun h => by (try dsimp only at h); omega) ((hcondL ⟨0, hn⟩).mp h)) (iblk0 V c 0 ⟨0, hn⟩))
  | n + 1, hn =>
    if hR : (n + 1) % 16 = 0 then
      (idleOut, sout0_A c (grid0.coords ⟨n + 1, hn⟩) (ms0_0 ⟨n + 1, hn⟩) (hs0_0 ⟨n + 1, hn⟩) (ms0_1 ⟨n + 1, hn⟩) (hs0_1 ⟨n + 1, hn⟩) scM0 (Memref.isWhole_whole _) ((hcondR ⟨n + 1, hn⟩).mpr hR) (fun h => (fun h => by (try dsimp only at h); omega) ((hcondL ⟨n + 1, hn⟩).mp h)) (iblk0 V c 0 ⟨n + 1, hn⟩))
    else
      if hL : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) scM0 (Memref.isWhole_whole _) (fun h => hR ((hcondR ⟨n + 1, hn⟩).mp h)) ((hcondL ⟨n + 1, hn⟩).mpr hL) (iblk0 V c 0 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) scM0 (Memref.isWhole_whole _) (fun h => hR ((hcondR ⟨n + 1, hn⟩).mp h)) ((hcondL ⟨n + 1, hn⟩).mpr hL) (iblk0 V c 0 ⟨n + 1, hn⟩) (outsAt0 c n (Nat.lt_of_succ_lt hn)).2)
      else
        (idleOut, sout0_B c (grid0.coords ⟨n + 1, hn⟩) (ms0_0 ⟨n + 1, hn⟩) (hs0_0 ⟨n + 1, hn⟩) (ms0_1 ⟨n + 1, hn⟩) (hs0_1 ⟨n + 1, hn⟩) scM0 (Memref.isWhole_whole _) (fun h => hR ((hcondR ⟨n + 1, hn⟩).mp h)) (fun h => hL ((hcondL ⟨n + 1, hn⟩).mp h)) (iblk0 V c 0 ⟨n + 1, hn⟩) (outsAt0 c n (Nat.lt_of_succ_lt hn)).2)

/-- `outsAt0` at a reset point. -/
theorem outsAt0_A (c : Dev nD) (t : Fin cfg0.N) (hR : t.val % 16 = 0) :
    outsAt0 V c t.val t.isLt = (idleOut, sout0_A c (grid0.coords t) (ms0_0 t) (hs0_0 t) (ms0_1 t) (hs0_1 t) scM0 (Memref.isWhole_whole _) ((hcondR t).mpr hR) (fun h => (fun h => by omega) ((hcondL t).mp h)) (iblk0 V c 0 t)) := by
  obtain ⟨n, hn⟩ := t
  cases n with
  | zero => exact rfl
  | succ n => exact (dif_pos hR).trans rfl

/-- `outsAt0` at a plain point. -/
theorem outsAt0_B (c : Dev nD) (t : Fin cfg0.N) (hR : ¬t.val % 16 = 0) (hL : ¬t.val % 16 = 15) :
    outsAt0 V c t.val t.isLt = (idleOut, sout0_B c (grid0.coords t) (ms0_0 t) (hs0_0 t) (ms0_1 t) (hs0_1 t) scM0 (Memref.isWhole_whole _) (fun h => hR ((hcondR t).mp h)) (fun h => hL ((hcondL t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at hR); exact absurd (Nat.zero_mod _) hR)
  | succ n => exact (dif_neg hR).trans ((dif_neg hL).trans rfl)

/-- `outsAt0` at a write-out point. -/
theorem outsAt0_C (c : Dev nD) (t : Fin cfg0.N) (hR : ¬t.val % 16 = 0) (hL : t.val % 16 = 15) :
    outsAt0 V c t.val t.isLt = (out0_C c (grid0.coords t) (ms0_0 t) (hs0_0 t) (ms0_1 t) (hs0_1 t) scM0 (Memref.isWhole_whole _) (fun h => hR ((hcondR t).mp h)) ((hcondL t).mpr hL) (iblk0 V c 0 t) (outsAt0 V c (t.val - 1) (Nat.lt_of_le_of_lt (Nat.sub_le _ _) t.isLt)).2,
      sout0_C c (grid0.coords t) (ms0_0 t) (hs0_0 t) (ms0_1 t) (hs0_1 t) scM0 (Memref.isWhole_whole _) (fun h => hR ((hcondR t).mp h)) ((hcondL t).mpr hL) (iblk0 V c 0 t) (outsAt0 V c (t.val - 1) (Nat.lt_of_le_of_lt (Nat.sub_le _ _) t.isLt)).2) := by
  obtain ⟨n, hn⟩ := t
  cases n with
  | zero => exact (by exfalso; (try dsimp only at hR); exact absurd (Nat.zero_mod _) hR)
  | succ n => exact (dif_neg hR).trans ((dif_pos hL).trans rfl)

/-! ## The invariant and the proof data -/

/-- Before position `n`: at the start the plain invariant (the accumulator at anything); afterwards the
    accumulator at what the point before left, the other scoped buffers and the generator register at anything. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ restS (F := F) c) ∗ (∃ r, prngReg c r)) := by
  cases n with
  | zero => exact absurd rfl hz
  | succ n => rfl

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

theorem owed0 (c : Dev nD) (t) : (dat0 V c).owed t = 0 := rfl
theorem q0 (c : Dev nD) (w) : (dat0 V c).q w = fullShare := rfl

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the kind of the point decides the case; the invariant hands the body the accumulator at
    what the point before left (at anything at the very first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  by_cases hR : t.val % 16 = 0
  · have hL : ¬condL (grid0.coords t) := fun h => (fun h => by omega) ((hcondL t).mp h)
    rw [Dat.leavesExact_idle (dat0 V c) 1 t (idleAt0_1 t hL) (noFlush0_1 t hL)]
    rw [outsAt0_A V c t hR]
    unfold sout0_A; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩⟩
      iapply ((kernelRun0_A c (grid0.coords t) _ _ _ _ _ _ ((hcondR t).mpr hR) hL (iblk0 V c 0 t)).2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _)
          iexact Hrest
        iexact Hg
      isplitl [Ho]; · iexact Ho
      isplitl [H0]; · iexact H0
      iexists _; iexact H1
    · rw [PhiS_castSucc V c t, PhiS_pos V c _ _ hz]
      iintro ⟨⟨⟨HS0, Hrest⟩, Hg⟩, Ho, ⟨%d0, H0⟩, ⟨%d1, H1⟩⟩
      iapply ((kernelRun0_A c (grid0.coords t) _ _ _ _ _ _ ((hcondR t).mpr hR) hL (iblk0 V c 0 t)).2 _ Set.univ _)
      isplitl [H0]; · iexact H0
      isplitl [H1]; · iexact H1
      isplitl [HS0]; · iexists _; iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _)
          iexact Hrest
        iexact Hg
      isplitl [Ho]; · iexact Ho
      isplitl [H0]; · iexact H0
      iexists _; iexact H1
  · have hz : t.val ≠ 0 := fun h => hR (by rw [h])
    have hRc : ¬condR (grid0.coords t) := fun h => hR ((hcondR t).mp h)
    by_cases hL : t.val % 16 = 15
    · have hLc : condL (grid0.coords t) := (hcondL t).mpr hL
      rw [show (dat0 V c).leavesExact 1 t = owns (c : Thread nD τ) (ms0_1 t) fullShare ((dat0 V c).after 1 t) from by
        unfold Dat.leavesExact; rw [liveAt0_1 t hLc], after0_1]
      rw [outsAt0_C V c t hR hL]
      unfold out0_C sout0_C; (try dsimp only)
      rw [PhiS_castSucc V c t, PhiS_pos V c _ _ hz]
      iintro ⟨⟨⟨HS0, Hrest⟩, Hg⟩, Ho, ⟨%d0, H0⟩, ⟨%d1, H1⟩⟩
      iapply ((kernelRun0_C c (grid0.coords t) _ _ _ _ _ _ hRc hLc (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (cover0_C c _ _ _ _ _ _ _ _ _ _ _)
    · have hLc : ¬condL (grid0.coords t) := fun h => hL ((hcondL t).mp h)
      rw [Dat.leavesExact_idle (dat0 V c) 1 t (idleAt0_1 t hLc) (noFlush0_1 t hLc)]
      rw [outsAt0_B V c t hR hL]
      unfold sout0_B; (try dsimp only)
      rw [PhiS_castSucc V c t, PhiS_pos V c _ _ hz]
      iintro ⟨⟨⟨HS0, Hrest⟩, Hg⟩, Ho, ⟨%d0, H0⟩, ⟨%d1, H1⟩⟩
      iapply ((kernelRun0_B c (grid0.coords t) _ _ _ _ _ _ hRc hLc (iblk0 V c 0 t) _).2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _)
          iexact Hrest
        iexact Hg
      isplitl [Ho]; · iexact Ho
      isplitl [H0]; · iexact H0
      iexists _; iexact H1

/-- The region's body obligation at every point. -/
theorem body_obligation0 (c : Dev nD) : BodyObligation (dat0 (F := F) V c) (defs₀ (F := F)) Variants.none () Set.univ := fun t => by
  rw [bigSep_W0, bigSep_W0]
  exact sound_body0 V c t

/-- The plain invariant is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back: the accumulator's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hrest⟩, Hg⟩
  isplitl [HS0 Hrest]
  · isplitl [HS0]
    · iexists _; iexact HS0
    iexact Hrest
  iexact Hg

end Cert.KernelIdeal.Hand

end
-- ==== Proof.KI.Region1.lean ====
/-
  The second kernel region (the residual add) of the program, at ANY contents `V` of the TensorCore's buffers at
  the region's entry. At grid point `t` the body reads the point's block of the big array (window 0) and the
  point's block of the per-(sample, channel) vector (window 1), and stores into the output block (window 2) the
  first plus the second broadcast along the two spatial axes. The proof data name exactly that: each input
  window's staging buffer holds its block, the output's holds the body's one store read back. The region keeps
  nothing between points, so its invariant is only "the scoped buffers no window stages, and the generator
  register, at anything".
-/
import proofs.«167002_j68032281969033_1_alg».proof.Proof.Gen.KernelIdeal.Launch
import proofs.«167002_j68032281969033_1_alg».proof.Proof.Gen.KernelIdeal.Skeleton
import proofs.«167002_j68032281969033_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The big input's staging buffer holds the point's block, whether the pipeline fetched it at this point or the
    block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the small input: its block index depends on the first grid coordinate only, so it is fetched once
    per sixteen points and found in place at the others. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body stores -/

/-- The whole small block and the whole big block, as the rectangles the body's loads and its store name. -/
abbrev rS : Rect S8x128 := Rect.unit (s := S8x128) ![0, 0] S8x128.size inb_S8x128_S8x128_0_0
abbrev rB : Rect S8x128x8x128 := Rect.unit (s := S8x128x8x128) ![0, 0, 0, 0] S8x128x8x128.size inb_S8x128x8x128_S8x128x8x128_0_0_0_0

/-- The output block after the body: its one whole-block store of "big block plus broadcast small block". -/
def out1_2 (y0 : Vec F S8x128 .f32) (x0 : Vec F S8x128x8x128 .f32) : Vec F S8x128x8x128 .f32 :=
  View.canon [⟨rB, k1_pay1 (View.ld y0 rS) (View.ld x0 rB)⟩]

/-- That one store covers the output block. -/
theorem cover1_2 (p0 : Vec F S8x128x8x128 .f32) (y : S8x128x8x128.Idx) :
    ∃ pc ∈ ([⟨rB, p0⟩] : List (View.Piece (Elt F) S8x128x8x128 .f32)), y ∈ pc.1.set :=
  View.cover_of_tiled [⟨rB, p0⟩] S8x128x8x128.size (by rfl) y

set_option maxHeartbeats 1000000 in
/-- The body on whole staging memrefs: the inputs at `x0`, `y0`, the output at anything; it hands the inputs back
    as they were and the output at `out1_2 y0 x0`. -/
theorem sound_kernel1 (c : Dev nD) (E : Set ℕ) (i : grid1.Coords) (arg2 : Memref sig .tc .vmem S8x128x8x128 .f32) (harg2 : arg2.IsWhole)
    (arg3 : Memref sig .tc .vmem S8x128 .f32) (harg3 : arg3.IsWhole) (arg4 : Memref sig .tc .vmem S8x128x8x128 .f32) (harg4 : arg4.IsWhole)
    (x0 : Vec F S8x128x8x128 .f32) (y0 : Vec F S8x128 .f32) (K : PUnit → sProp 𝕄) :
    iprop(owns (c : Thread nD τ) arg2 fullShare x0 ∗ owns (c : Thread nD τ) arg3 fullShare y0 ∗ (∃ d, owns (c : Thread nD τ) arg4 fullShare d)
        ∗ (iprop(owns (c : Thread nD τ) arg2 fullShare x0 ∗ owns (c : Thread nD τ) arg3 fullShare y0 ∗ owns (c : Thread nD τ) arg4 fullShare (out1_2 y0 x0)) -∗ K ⟨⟩))
      ⊢ wp frame (wpE (defs₀ (F := F)) Variants.none c none) E (cc1_add_kernel i arg2 harg2 arg3 harg3 arg4 harg4) K := by
  simp only [cc1_add_kernel_eq_skeleton]; unfold cc1_add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 1 t) (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 1 t) (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem owed1 (c : Dev nD) (t) : (dat1 V c).owed t = 0 := rfl
theorem q1 (c : Dev nD) (w) : (dat1 V c).q w = fullShare := rfl
theorem Phi1 (c : Dev nD) (t) : (dat1 V c).Φ t = Pipeline.ΦA spec1 c := rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The region's body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of the whole program: its two kernel regions and the host operations between them, composed in @main's
  order. Between two items the core holds every unscoped buffer at a named valuation: the launch contents, then
  what the first region leaves in its output array (`outs 1`), then the host stretches' results, then what the
  second region leaves in the program's result (`outs 6`). Given that those two named contents ARE what the
  regions' proof data compute (`houts1`, `houts6`), every weakly fair execution terminates and the final memory
  holds every unscoped buffer at the last valuation; the frame claim and the result's contents are read off it.
-/
import proofs.«167002_j68032281969033_1_alg».proof.Proof.KI.Region0
import proofs.«167002_j68032281969033_1_alg».proof.Proof.KI.Region1
import proofs.«167002_j68032281969033_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg) (outs : Outs (F := F))

/-! ## The regions' entry contents, the proof data family, what rides along -/

/-- The buffers as the first region finds them (the launch contents) and as the second does (after the host
    operations on the first region's result), read at the TensorCore's references. -/
abbrev Ve0 : (c : Dev nD) → (b : Ref sig .tc) → Buf (Elt F) ((c : Thread nD τ).loc b) := fun c b => V0 m c b
abbrev Ve1 : (c : Dev nD) → (b : Ref sig .tc) → Buf (Elt F) ((c : Thread nD τ).loc b) := fun c b => V5 m outs c b

/-- Both regions' proof data, each at its entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m outs) c

abbrev 𝒱h : Variants := Variants.none
/-- No core owes another anything: no level is assigned. -/
abbrev Lh : GSem nD τ sig → Finset Unit := fun _ => ∅
abbrev lvh : GSem nD τ sig → Unit → ℕ := fun _ _ => 0
/-- What rides beside the buffers through every item: the generator register at some state, and nothing owed. -/
abbrev Rh (c : Dev nD) : sProp 𝕄 := iprop((∃ r, prngReg c r) ∗ ∃ W, owes (c : Thread nD τ) (0 : CellTallies nD τ sig Unit) W)
abbrev Eh : Fin 3 → Dev nD → sProp 𝕄 := fun _ c => Rh (F := F) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions' arrays at their exits -/

/-- After the first region each of its arrays holds what the next valuation says: the input unchanged, the output
    at `outs 1`. -/
theorem hF0 (houts1 : ∀ c, outs 1 main_v0 c = (dat0 (Ve0 m) c).arrAt 1 cfg0.N) (c : Dev nD) (w : Fin cfg0.W) :
    (dat0 (Ve0 m) c).arrAt w cfg0.N = V1 m outs c (Pipeline.arrRef spec0 w) :=
  match w with
  | ⟨0, _⟩ => ((dat0 (Ve0 m) c).arrAt_in 0 rfl _).trans ((A_eq0 (Ve0 m) c 0).trans (V1_of m outs c main_arg0 (by decide)).symm)
  | ⟨1, _⟩ => (houts1 c).symm.trans
      (show outs 1 main_v0 c = Function.update (V0 m c) (Proc.devRef .tc main_v0) (outs 1 main_v0 c) (Proc.devRef .tc main_v0) from
        (Function.update_self (β := fun b : DevRef τ sig => Buf (Elt F) (((c : Thread nD τ)).1, b)) (Proc.devRef .tc main_v0) (outs 1 main_v0 c) (V0 m c)).symm)

theorem hrest0 (c : Dev nD) : ∀ b : Ref sig .tc, b ∉ Finset.univ.image (Pipeline.arrRef spec0) → V1 m outs c b = V0 m c b :=
  fun b hb => V1_of m outs c b fun h => hb (Finset.mem_image.mpr ⟨1, Finset.mem_univ _, (List.mem_singleton.mp h).symm⟩)

/-- After the second region: the two inputs unchanged, the result at `outs 6`. -/
theorem hF1 (houts6 : ∀ c, outs 6 main_v20 c = (dat1 (Ve1 m outs) c).arrAt 2 cfg1.N) (c : Dev nD) (w : Fin cfg1.W) :
    (dat1 (Ve1 m outs) c).arrAt w cfg1.N = V6 m outs c (Pipeline.arrRef spec1 w) :=
  match w with
  | ⟨0, _⟩ => ((dat1 (Ve1 m outs) c).arrAt_in 0 rfl _).trans ((A_eq1 (Ve1 m outs) c 0).trans (V6_of m outs c main_arg0 (by decide)).symm)
  | ⟨1, _⟩ => ((dat1 (Ve1 m outs) c).arrAt_in 1 rfl _).trans ((A_eq1 (Ve1 m outs) c 1).trans (V6_of m outs c main_v19 (by decide)).symm)
  | ⟨2, _⟩ => (houts6 c).symm.trans
      (show outs 6 main_v20 c = Function.update (V5 m outs c) (Proc.devRef .tc main_v20) (outs 6 main_v20 c) (Proc.devRef .tc main_v20) from
        (Function.update_self (β := fun b : DevRef τ sig => Buf (Elt F) (((c : Thread nD τ)).1, b)) (Proc.devRef .tc main_v20) (outs 6 main_v20 c) (V5 m outs c)).symm)

theorem hrest1 (c : Dev nD) : ∀ b : Ref sig .tc, b ∉ Finset.univ.image (Pipeline.arrRef spec1) → V6 m outs c b = V5 m outs c b :=
  fun b hb => V6_of m outs c b fun h => hb (Finset.mem_image.mpr ⟨2, Finset.mem_univ _, (List.mem_singleton.mp h).symm⟩)

/-! ## The regions as segments -/

set_option backward.isDefEq.respectTransparency.types false in
/-- The first region: entered from every unscoped buffer at the launch contents, left at the next valuation. Its
    arrays are split out of the unscoped buffers and put back at their exit contents; the generator register goes
    into the region's invariant and comes back; nothing is owed; the kernel has no semaphore of its own. -/
def reg0 (houts1 : ∀ c, outs 1 main_v0 c = (dat0 (Ve0 m) c).arrAt 1 cfg0.N) :
    Pipeline.RegionSeg (pcfgs (F := F)) adm (pdats m outs) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ Lh lvh 0 fun _ _ => rfl
  pre c := iprop(StableHlo.held (c : Thread nD τ) (Pipeline.ucRefs τ sig) (V0 m c) ∗ Rh c)
  post c := iprop(StableHlo.held (c : Thread nD τ) (Pipeline.ucRefs τ sig) (V1 m outs c) ∗ Rh c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    refine BIBase.Entails.trans (hout0 (Ve0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (Ve0 m c) (fun b => V1 m outs c b) ((pdats m outs 0 c).arrAt · cfg0.N) (hF0 m outs houts1 c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer after the host operations, left at the last valuation. -/
def reg1 (houts6 : ∀ c, outs 6 main_v20 c = (dat1 (Ve1 m outs) c).arrAt 2 cfg1.N) :
    Pipeline.RegionSeg (pcfgs (F := F)) adm (pdats m outs) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (Ve1 m outs) c).loose
  hwaits := Pipeline.hwaits_of_owed_zero _ _ _ _ Lh lvh 1 fun _ _ => rfl
  pre c := iprop(StableHlo.held (c : Thread nD τ) (Pipeline.ucRefs τ sig) (V5 m outs c) ∗ Rh c)
  post c := iprop(iprop(StableHlo.held (c : Thread nD τ) (Pipeline.ucRefs τ sig) (V6 m outs c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (Ve1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (Ve1 m outs c) (fun b => V6 m outs c b) ((pdats m outs 1 c).arrAt · cfg1.N) (hF1 m outs houts6 c) (hrest1 m outs c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

set_option backward.isDefEq.respectTransparency.types false in
/-- Every weakly fair execution of @main from memory `m` with zero counters terminates, and the final memory holds
    every unscoped buffer of every core at the last valuation. -/
theorem run_all (houts1 : ∀ c, outs 1 main_v0 c = (dat0 (Ve0 m) c).arrAt 1 cfg0.N)
    (houts6 : ∀ c, outs 6 main_v20 c = (dat1 (Ve1 m outs) c).arrAt 2 cfg1.N) :
    θ_run defs (onTc (τ := τ) (main (F := F))) ⟨m, fun _ => 0, ρ⟩ (fun r => ∀ c : Dev nD,
      ∀ b ∈ Pipeline.ucRefs τ sig, r.2.mem (((c : Thread nD τ)).1, b) = V6 m outs c b) := by
  refine Pipeline.θ_run_regions_kit_dev (pcfgs (F := F)) adm (pdats m outs) () cellOf_inj emb₁ defs₀ 𝒱h Lh lvh m ρ main
    (segs m outs 𝒱h Lh lvh Eh () (pdats m outs) (reg0 m outs houts1) (reg1 m outs houts6))
    (fun c Q => by
      rewrite [main_chain c, Seg.run_eq_chain,
        show (segs m outs 𝒱h Lh lvh Eh () (pdats m outs) (reg0 m outs houts1) (reg1 m outs houts6) c).map Seg.prog = [
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rh c))
    (Tₙ := fun c => iprop(StableHlo.held (c : Thread nD τ) (Pipeline.ucRefs τ sig) (V6 m outs c) ∗ ∃ r, prngReg c r))
    (hch := fun c => ⟨.rfl, .rfl, .rfl, .rfl, .rfl, .rfl, .rfl⟩)
    (hinit := ?_)
    (QY := fun c s => ∀ b ∈ Pipeline.ucRefs τ sig, s.mem (((c : Thread nD τ)).1, b) = V6 m outs c b)
    (hfin := fun c s' => by
      iintro ⟨⟨Hh, -⟩, HSI⟩
      unfold StableHlo.held
      imodintro
      iapply (pointsTo_read_all (Pipeline.ucRefs τ sig) (fun b => (((c : Thread nD τ)).1, b)) (V6 m outs c) s')
      isplitl [Hh] <;> iassumption)
    (hQ := fun _ h => h)
  · refine Pipeline.initEach Lh lvh fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO

/-! ## What is read off the final memory -/

/-- The frame: every argument array ends as launched. -/
theorem frame (houts1 : ∀ c, outs 1 main_v0 c = (dat0 (Ve0 m) c).arrAt 1 cfg0.N)
    (houts6 : ∀ c, outs 6 main_v20 c = (dat1 (Ve1 m outs) c).arrAt 2 cfg1.N) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (V6_main_arg0 m outs c),
     (h c _ (mem_uc main_arg1 (by decide))).trans (V6_main_arg1 m outs c),
     (h c _ (mem_uc main_arg2 (by decide))).trans (V6_main_arg2 m outs c),
     (h c _ (mem_uc main_arg3 (by decide))).trans (V6_main_arg3 m outs c),
     (h c _ (mem_uc main_arg4 (by decide))).trans (V6_main_arg4 m outs c),
     (h c _ (mem_uc main_arg5 (by decide))).trans (V6_main_arg5 m outs c),
     (h c _ (mem_uc main_arg6 (by decide))).trans (V6_main_arg6 m outs c)⟩) (run_all m ρ outs houts1 houts6)

/-- The same run with the result named: it ends at `outs 6`. -/
theorem run_result (houts1 : ∀ c, outs 1 main_v0 c = (dat0 (Ve0 m) c).arrAt 1 cfg0.N)
    (houts6 : ∀ c, outs 6 main_v20 c = (dat1 (Ve1 m outs) c).arrAt 2 cfg1.N) :
    θ_run defs (onTc (τ := τ) (main (F := F))) ⟨m, fun _ => 0, ρ⟩ (fun r => ∀ c : Dev nD,
      r.2.mem ((c.tc : Thread nD τ).loc main_v20) = outs 6 main_v20 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v20 (by decide))).trans (Function.update_self _ _ _),
     (h c _ (mem_uc main_arg0 (by decide))).trans (V6_main_arg0 m outs c),
     (h c _ (mem_uc main_arg1 (by decide))).trans (V6_main_arg1 m outs c),
     (h c _ (mem_uc main_arg2 (by decide))).trans (V6_main_arg2 m outs c),
     (h c _ (mem_uc main_arg3 (by decide))).trans (V6_main_arg3 m outs c),
     (h c _ (mem_uc main_arg4 (by decide))).trans (V6_main_arg4 m outs c),
     (h c _ (mem_uc main_arg5 (by decide))).trans (V6_main_arg5 m outs c),
     (h c _ (mem_uc main_arg6 (by decide))).trans (V6_main_arg6 m outs c)⟩) (run_all m ρ outs houts1 houts6)

/-! ## The named contents, chosen

`outs` is chosen so that its two read points are what the regions' proof data compute. The second region's
entry contents read only the first region's named contents, so the choice is made in two steps. -/

/-- Step one: the first region's output array at what its proof data compute; elsewhere the launch contents. -/
def outsA : Outs (F := F) := fun _ r c =>
  if h : r = main_v0 then (by subst h; exact (dat0 (Ve0 m) c).arrAt 1 cfg0.N) else m ((c : Thread nD τ).loc r)

/-- Step two: the program's result at what the second region's proof data compute from step one. -/
def outsF : Outs (F := F) := fun n r c =>
  if n = 6 then
    (if h : r = main_v20 then (by subst h; exact (dat1 (Ve1 m (outsA m)) c).arrAt 2 cfg1.N) else m ((c : Thread nD τ).loc r))
  else outsA m n r c

theorem outsA_v0 (n : ℕ) (c : Dev nD) : outsA m n main_v0 c = (dat0 (Ve0 m) c).arrAt 1 cfg0.N := by
  unfold outsA; rw [dif_pos rfl]

theorem outsF_one (c : Dev nD) : outsF m 1 main_v0 c = outsA m 1 main_v0 c := by
  unfold outsF; rw [if_neg (by decide)]

theorem outsF_six (c : Dev nD) : outsF m 6 main_v20 c = (dat1 (Ve1 m (outsA m)) c).arrAt 2 cfg1.N := by
  unfold outsF; rw [if_pos rfl, dif_pos rfl]

/-- The valuations up to the second region's entry read `outs` at the first region's output only. -/
theorem V5_congr (o o' : Outs (F := F)) (h : ∀ c, o 1 main_v0 c = o' 1 main_v0 c) (c : Dev nD) : V5 m o c = V5 m o' c := by
  show StableHlo.after hostOps1_3 (StableHlo.after hostOps1_2 (StableHlo.after hostOps1_1 (StableHlo.after hostOps1
      (Function.update (V0 m c) (Proc.devRef .tc main_v0) (o 1 main_v0 c))))) = _
  rw [h c]

theorem Ve1_outsF : Ve1 m (outsF m) = Ve1 m (outsA m) := by
  funext c b
  show V5 m (outsF m) c b = V5 m (outsA m) c b
  rw [V5_congr m (outsF m) (outsA m) (outsF_one m) c]

theorem houts1F (c : Dev nD) : outsF m 1 main_v0 c = (dat0 (Ve0 m) c).arrAt 1 cfg0.N :=
  (outsF_one m c).trans (outsA_v0 m 1 c)

theorem houts6F (c : Dev nD) : outsF m 6 main_v20 c = (dat1 (Ve1 m (outsF m)) c).arrAt 2 cfg1.N := by
  rw [Ve1_outsF]; exact outsF_six m c

/-- The frame of the program, and its run with the result named. -/
theorem frame_main :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame m ρ (outsF m) (houts1F m) (houts6F m)

theorem run_main :
    θ_run defs (onTc (τ := τ) (main (F := F))) ⟨m, fun _ => 0, ρ⟩ (fun r => ∀ c : Dev nD,
      r.2.mem ((c.tc : Thread nD τ).loc main_v20) = outsF m 6 main_v20 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_result m ρ (outsF m) (houts1F m) (houts6F m)

end Cert.KernelIdeal.Hand

end
-- ==== Proof.K.Region0.lean ====
/-
  The first kernel region (the spatial sum) of the program, at ANY contents `V` of the TensorCore's buffers at the
  region's entry. The grid is 4 x 16: the first coordinate picks a block of 128 channels, the second a slab of 8
  rows of the 128 x 128 plane. At a point the body adds the slab's sum (over its 8 rows and 128 columns) into a
  scratch accumulator of shape 8 x 128 (samples x channels of the block); at the first slab of a channel block it
  first resets the accumulator to zero, and at the last slab it writes the accumulator times 2^-14 into the output
  block. So there are three kinds of point — reset (slab 0), plain (slabs 1 to 14), write-out (slab 15) — and the
  scratch is carried from each point to the next. The proof data say what the scratch holds after every point
  (by recursion on the point) and what the output block holds at the write-out points; the output window is idle
  at the other points and handed back as found.
-/
import proofs.«167002_j68032281969033_1_alg».proof.Proof.Gen.Kernel.Launch
import proofs.«167002_j68032281969033_1_alg».proof.Proof.Gen.Kernel.Skeleton
import proofs.«167002_j68032281969033_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the point's slab at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- "This is the first slab of its channel block": the reset condition. -/
abbrev condR (i : grid0.Coords) : Prop := (Scalar.cmpi .ne (Scalar.extui (Scalar.cmpi .eq (BitVec.ofNat 32 (i 1).val) 0#32)) 0#32) = 1#1
theorem hcondR : ∀ t : Fin cfg0.N, condR (grid0.coords t) ↔ t.val % 16 = 0 :=
  (by decide +kernel : ∀ t : Fin grid0.N, condR (grid0.coords t) ↔ t.val % 16 = 0)

/-- "This is the last slab of its channel block": the write-out condition. -/
abbrev condL (i : grid0.Coords) : Prop := k0_cond2 i = 1#1
theorem hcondL : ∀ t : Fin cfg0.N, condL (grid0.coords t) ↔ t.val % 16 = 15 :=
  (by decide +kernel : ∀ t : Fin grid0.N, condL (grid0.coords t) ↔ t.val % 16 = 15)

/-- The input window is never idle; the output window is idle, and not written back, exactly off the write-out points. -/
theorem liveAt0_0 : ∀ t : Fin cfg0.N, cfg0.idle 0 (grid0.coords t) = false := by decide +kernel
theorem idleAt0_1 : ∀ t : Fin cfg0.N, ¬condL (grid0.coords t) → cfg0.idle 1 (grid0.coords t) = true := by decide +kernel
theorem noFlush0_1 : ∀ t : Fin cfg0.N, ¬condL (grid0.coords t) → (cfg0.win 1).flush t = false := by decide +kernel
theorem liveAt0_1 : ∀ t : Fin cfg0.N, condL (grid0.coords t) → cfg0.idle 1 (grid0.coords t) = false := by decide +kernel

/-! ## The memrefs the body is called with -/

abbrev ms0_0 (t : Fin cfg0.N) : Memref sig .tc .vmem S8x128x8x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
/-- The accumulator. -/
abbrev scM0 : Memref sig .tc .vmem S8x128 .f32 := Memref.whole cc0_scratch0
/-- Views through which the output block's and the accumulator's contents are stated. -/
abbrev VO0 : View sig .tc .vmem S8x128 .f32 := (Memref.whole cc0_stg1_0 : Memref sig .tc .vmem S8x128 .f32).view
abbrev VS0 : View sig .tc .vmem S8x128 .f32 := scM0.view

/-- The scoped buffers of the core that are neither staging buffers of this region nor the accumulator (the other
    region's staging buffers), each at anything: they ride along untouched. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's plain invariant, with the accumulator as a memref owned at some contents. -/
theorem PhiA0_eq (c : Dev nD) :
    (Pipeline.ΦA spec0 c : sProp 𝕄)
      = iprop(iprop((∃ d, owns (c : Thread nD τ) scM0 fullShare d) ∗ restS (F := F) c) ∗ (∃ r, prngReg c r)) := by
  unfold Pipeline.ΦA restS; rw [scopedRest0_eq]; simp only [scM0, owns_whole]; try rfl

/-! ## The body on any staging memrefs, case by case -/

set_option maxHeartbeats 1000000 in
/-- RESET points: the accumulator is stored twice (zero, then zero plus the slab's sum); the output is untouched. -/
noncomputable def kernelRun0_A (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : condR i) (hL : ¬condL i)
    (x0 : Vec F S8x128x8x128 .f32) :
    { LS : List (View.Piece (Elt F) S8x128 .f32) //
      ∀ (xi1 : Vec F S8x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS)) -∗ K ⟨⟩))
          ⊢ wp frame (wpE (defs₀ (F := F)) Variants.none c none) E (cc0_mean_kernel i arg2 harg2 arg3 harg3 arg4 harg4) K } := by
  refine ⟨?_, fun xi1 E K => ?run⟩
  case run =>
    simp only [cc0_mean_kernel_eq_skeleton]; unfold cc0_mean_kernel_skel
    unfold owns
    iintro ⟨⟨%f0, %hf0, H0⟩, ⟨%f1, %hf1, H1⟩, ⟨%ds, %fs0, -, HS0⟩, Hk⟩
    obtain rfl := harg2.eq_unread hf0; obtain rfl := harg3.eq_unread hf1
    sl_exec (disch := first | exact hR | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- PLAIN points: the accumulator, found at `xs0`, is stored once (`xs0` plus the slab's sum); the output is untouched. -/
noncomputable def kernelRun0_B (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : ¬condR i) (hL : ¬condL i)
    (x0 : Vec F S8x128x8x128 .f32) (xs0 : Vec F S8x128 .f32) :
    { LS : List (View.Piece (Elt F) S8x128 .f32) //
      ∀ (xi1 : Vec F S8x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS)) -∗ K ⟨⟩))
          ⊢ wp frame (wpE (defs₀ (F := F)) Variants.none c none) E (cc0_mean_kernel i arg2 harg2 arg3 harg3 arg4 harg4) K } := by
  refine ⟨?_, fun xi1 E K => ?run⟩
  case run =>
    simp only [cc0_mean_kernel_eq_skeleton]; unfold cc0_mean_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hR | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- WRITE-OUT points: the accumulator, found at `xs0`, is stored once, read back, and its 2^-14 multiple stored into
    the output block. -/
noncomputable def kernelRun0_C (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : ¬condR i) (hL : condL i)
    (x0 : Vec F S8x128x8x128 .f32) (xs0 : Vec F S8x128 .f32) :
    Σ' (L1 : List (View.Piece (Elt F) S8x128 .f32)), { LS : List (View.Piece (Elt F) S8x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0_mean_kernel i arg2 harg2 arg3 harg3 arg4 harg4) K } := by
  refine ⟨?_, ?_, fun E K => ?run⟩
  case run =>
    simp only [cc0_mean_kernel_eq_skeleton]; unfold cc0_mean_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hR | exact hL)
    sl_step
    iapply Hk
    isplitl [H0]
    · iexists _; isplitr; · ipureintro; exact harg2.read_unread _
      iexact H0
    isplitl [H1]
    · iexists _; iexact H1
    iexists _; iexact HS0

/-! ## What each case leaves in the accumulator and in the output block -/

/-- The accumulator's pieces at a reset point cover it. -/
theorem scover0_A (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : condR i) (hL : ¬condL i)
    (x0 : Vec F S8x128x8x128 .f32) (y : S8x128.Idx) :
    ∃ pc ∈ (kernelRun0_A c i arg2 harg2 arg3 harg3 arg4 harg4 hR hL x0).1, y ∈ pc.1.set :=
  View.cover_of_tiledL (kernelRun0_A c i arg2 harg2 arg3 harg3 arg4 harg4 hR hL x0).1 S8x128.size (by sl_kernel_rfl) y

/-- What a reset point leaves in the accumulator. -/
def sout0_A (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : condR i) (hL : ¬condL i)
    (x0 : Vec F S8x128x8x128 .f32) : Vec F S8x128 .f32 :=
  VS0.read (Elt F) (VS0.writes (Elt F) VS0.junk (kernelRun0_A c i arg2 harg2 arg3 harg3 arg4 harg4 hR hL x0).1)

theorem scover0_B (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : ¬condR i) (hL : ¬condL i)
    (x0 : Vec F S8x128x8x128 .f32) (xs0 : Vec F S8x128 .f32) (y : S8x128.Idx) :
    ∃ pc ∈ (kernelRun0_B c i arg2 harg2 arg3 harg3 arg4 harg4 hR hL x0 xs0).1, y ∈ pc.1.set :=
  View.cover_of_tiledL (kernelRun0_B c i arg2 harg2 arg3 harg3 arg4 harg4 hR hL x0 xs0).1 S8x128.size (by sl_kernel_rfl) y

/-- What a plain point leaves in the accumulator, over what the point before left. -/
def sout0_B (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : ¬condR i) (hL : ¬condL i)
    (x0 : Vec F S8x128x8x128 .f32) (xs0 : Vec F S8x128 .f32) : Vec F S8x128 .f32 :=
  VS0.read (Elt F) (VS0.writes (Elt F) VS0.junk (kernelRun0_B c i arg2 harg2 arg3 harg3 arg4 harg4 hR hL x0 xs0).1)

theorem cover0_C (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : ¬condR i) (hL : condL i)
    (x0 : Vec F S8x128x8x128 .f32) (xs0 : Vec F S8x128 .f32) (y : S8x128.Idx) :
    ∃ pc ∈ (kernelRun0_C c i arg2 harg2 arg3 harg3 arg4 harg4 hR hL x0 xs0).1, y ∈ pc.1.set :=
  View.cover_of_tiledL (kernelRun0_C c i arg2 harg2 arg3 harg3 arg4 harg4 hR hL x0 xs0).1 S8x128.size (by sl_kernel_rfl) y

/-- What a write-out point leaves in the output block. -/
def out0_C (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : ¬condR i) (hL : condL i)
    (x0 : Vec F S8x128x8x128 .f32) (xs0 : Vec F S8x128 .f32) : Vec F S8x128 .f32 :=
  VO0.read (Elt F) (VO0.writes (Elt F) VO0.junk (kernelRun0_C c i arg2 harg2 arg3 harg3 arg4 harg4 hR hL x0 xs0).1)

theorem scover0_C (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : ¬condR i) (hL : condL i)
    (x0 : Vec F S8x128x8x128 .f32) (xs0 : Vec F S8x128 .f32) (y : S8x128.Idx) :
    ∃ pc ∈ (kernelRun0_C c i arg2 harg2 arg3 harg3 arg4 harg4 hR hL x0 xs0).2.1, y ∈ pc.1.set :=
  View.cover_of_tiledL (kernelRun0_C c i arg2 harg2 arg3 harg3 arg4 harg4 hR hL x0 xs0).2.1 S8x128.size (by sl_kernel_rfl) y

/-- What a write-out point leaves in the accumulator. -/
def sout0_C (c : Dev nD) (i : grid0.Coords) (arg2 : Memref sig .tc .vmem S8x128x8x128 .f32) (harg2 : arg2.IsWhole) (arg3 : Memref sig .tc .vmem S8x128 .f32) (harg3 : arg3.IsWhole) (arg4 : Memref sig .tc .vmem S8x128 .f32) (harg4 : arg4.IsWhole) (hR : ¬condR i) (hL : condL i)
    (x0 : Vec F S8x128x8x128 .f32) (xs0 : Vec F S8x128 .f32) : Vec F S8x128 .f32 :=
  VS0.read (Elt F) (VS0.writes (Elt F) VS0.junk (kernelRun0_C c i arg2 harg2 arg3 harg3 arg4 harg4 hR hL x0 xs0).2.1)

/-- The output block where the body stores nothing: contents nothing consults. -/
def idleOut : Vec F S8x128 .f32 := VO0.read (Elt F) VO0.junk

/-! ## The accumulation, point by point -/

/-- What the output block and the accumulator hold after the body at position `n` (a pair): by the kind of the
    point, the accumulator of a plain or write-out point over what the point before left. -/
def outsAt0 (c : Dev nD) : (n : ℕ) → n < cfg0.N → Vec F S8x128 .f32 × Vec F S8x128 .f32
  | 0, hn => (idleOut, sout0_A c (grid0.coords ⟨0, hn⟩) (ms0_0 ⟨0, hn⟩) (hs0_0 ⟨0, hn⟩) (ms0_1 ⟨0, hn⟩) (hs0_1 ⟨0, hn⟩) scM0 (Memref.isWhole_whole _) ((hcondR ⟨0, hn⟩).mpr (Nat.zero_mod _)) (fun h => (fun h => by (try dsimp only at h); omega) ((hcondL ⟨0, hn⟩).mp h)) (iblk0 V c 0 ⟨0, hn⟩))
  | n + 1, hn =>
    if hR : (n + 1) % 16 = 0 then
      (idleOut, sout0_A c (grid0.coords ⟨n + 1, hn⟩) (ms0_0 ⟨n + 1, hn⟩) (hs0_0 ⟨n + 1, hn⟩) (ms0_1 ⟨n + 1, hn⟩) (hs0_1 ⟨n + 1, hn⟩) scM0 (Memref.isWhole_whole _) ((hcondR ⟨n + 1, hn⟩).mpr hR) (fun h => (fun h => by (try dsimp only at h); omega) ((hcondL ⟨n + 1, hn⟩).mp h)) (iblk0 V c 0 ⟨n + 1, hn⟩))
    else
      if hL : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) scM0 (Memref.isWhole_whole _) (fun h => hR ((hcondR ⟨n + 1, hn⟩).mp h)) ((hcondL ⟨n + 1, hn⟩).mpr hL) (iblk0 V c 0 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) scM0 (Memref.isWhole_whole _) (fun h => hR ((hcondR ⟨n + 1, hn⟩).mp h)) ((hcondL ⟨n + 1, hn⟩).mpr hL) (iblk0 V c 0 ⟨n + 1, hn⟩) (outsAt0 c n (Nat.lt_of_succ_lt hn)).2)
      else
        (idleOut, sout0_B c (grid0.coords ⟨n + 1, hn⟩) (ms0_0 ⟨n + 1, hn⟩) (hs0_0 ⟨n + 1, hn⟩) (ms0_1 ⟨n + 1, hn⟩) (hs0_1 ⟨n + 1, hn⟩) scM0 (Memref.isWhole_whole _) (fun h => hR ((hcondR ⟨n + 1, hn⟩).mp h)) (fun h => hL ((hcondL ⟨n + 1, hn⟩).mp h)) (iblk0 V c 0 ⟨n + 1, hn⟩) (outsAt0 c n (Nat.lt_of_succ_lt hn)).2)

/-- `outsAt0` at a reset point. -/
theorem outsAt0_A (c : Dev nD) (t : Fin cfg0.N) (hR : t.val % 16 = 0) :
    outsAt0 V c t.val t.isLt = (idleOut, sout0_A c (grid0.coords t) (ms0_0 t) (hs0_0 t) (ms0_1 t) (hs0_1 t) scM0 (Memref.isWhole_whole _) ((hcondR t).mpr hR) (fun h => (fun h => by omega) ((hcondL t).mp h)) (iblk0 V c 0 t)) := by
  obtain ⟨n, hn⟩ := t
  cases n with
  | zero => exact rfl
  | succ n => exact (dif_pos hR).trans rfl

/-- `outsAt0` at a plain point. -/
theorem outsAt0_B (c : Dev nD) (t : Fin cfg0.N) (hR : ¬t.val % 16 = 0) (hL : ¬t.val % 16 = 15) :
    outsAt0 V c t.val t.isLt = (idleOut, sout0_B c (grid0.coords t) (ms0_0 t) (hs0_0 t) (ms0_1 t) (hs0_1 t) scM0 (Memref.isWhole_whole _) (fun h => hR ((hcondR t).mp h)) (fun h => hL ((hcondL t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at hR); exact absurd (Nat.zero_mod _) hR)
  | succ n => exact (dif_neg hR).trans ((dif_neg hL).trans rfl)

/-- `outsAt0` at a write-out point. -/
theorem outsAt0_C (c : Dev nD) (t : Fin cfg0.N) (hR : ¬t.val % 16 = 0) (hL : t.val % 16 = 15) :
    outsAt0 V c t.val t.isLt = (out0_C c (grid0.coords t) (ms0_0 t) (hs0_0 t) (ms0_1 t) (hs0_1 t) scM0 (Memref.isWhole_whole _) (fun h => hR ((hcondR t).mp h)) ((hcondL t).mpr hL) (iblk0 V c 0 t) (outsAt0 V c (t.val - 1) (Nat.lt_of_le_of_lt (Nat.sub_le _ _) t.isLt)).2,
      sout0_C c (grid0.coords t) (ms0_0 t) (hs0_0 t) (ms0_1 t) (hs0_1 t) scM0 (Memref.isWhole_whole _) (fun h => hR ((hcondR t).mp h)) ((hcondL t).mpr hL) (iblk0 V c 0 t) (outsAt0 V c (t.val - 1) (Nat.lt_of_le_of_lt (Nat.sub_le _ _) t.isLt)).2) := by
  obtain ⟨n, hn⟩ := t
  cases n with
  | zero => exact (by exfalso; (try dsimp only at hR); exact absurd (Nat.zero_mod _) hR)
  | succ n => exact (dif_neg hR).trans ((dif_pos hL).trans rfl)

/-! ## The invariant and the proof data -/

/-- Before position `n`: at the start the plain invariant (the accumulator at anything); afterwards the
    accumulator at what the point before left, the other scoped buffers and the generator register at anything. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ restS (F := F) c) ∗ (∃ r, prngReg c r)) := by
  cases n with
  | zero => exact absurd rfl hz
  | succ n => rfl

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

theorem owed0 (c : Dev nD) (t) : (dat0 V c).owed t = 0 := rfl
theorem q0 (c : Dev nD) (w) : (dat0 V c).q w = fullShare := rfl

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the kind of the point decides the case; the invariant hands the body the accumulator at
    what the point before left (at anything at the very first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  by_cases hR : t.val % 16 = 0
  · have hL : ¬condL (grid0.coords t) := fun h => (fun h => by omega) ((hcondL t).mp h)
    rw [Dat.leavesExact_idle (dat0 V c) 1 t (idleAt0_1 t hL) (noFlush0_1 t hL)]
    rw [outsAt0_A V c t hR]
    unfold sout0_A; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩⟩
      iapply ((kernelRun0_A c (grid0.coords t) _ _ _ _ _ _ ((hcondR t).mpr hR) hL (iblk0 V c 0 t)).2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _)
          iexact Hrest
        iexact Hg
      isplitl [Ho]; · iexact Ho
      isplitl [H0]; · iexact H0
      iexists _; iexact H1
    · rw [PhiS_castSucc V c t, PhiS_pos V c _ _ hz]
      iintro ⟨⟨⟨HS0, Hrest⟩, Hg⟩, Ho, ⟨%d0, H0⟩, ⟨%d1, H1⟩⟩
      iapply ((kernelRun0_A c (grid0.coords t) _ _ _ _ _ _ ((hcondR t).mpr hR) hL (iblk0 V c 0 t)).2 _ Set.univ _)
      isplitl [H0]; · iexact H0
      isplitl [H1]; · iexact H1
      isplitl [HS0]; · iexists _; iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _)
          iexact Hrest
        iexact Hg
      isplitl [Ho]; · iexact Ho
      isplitl [H0]; · iexact H0
      iexists _; iexact H1
  · have hz : t.val ≠ 0 := fun h => hR (by rw [h])
    have hRc : ¬condR (grid0.coords t) := fun h => hR ((hcondR t).mp h)
    by_cases hL : t.val % 16 = 15
    · have hLc : condL (grid0.coords t) := (hcondL t).mpr hL
      rw [show (dat0 V c).leavesExact 1 t = owns (c : Thread nD τ) (ms0_1 t) fullShare ((dat0 V c).after 1 t) from by
        unfold Dat.leavesExact; rw [liveAt0_1 t hLc], after0_1]
      rw [outsAt0_C V c t hR hL]
      unfold out0_C sout0_C; (try dsimp only)
      rw [PhiS_castSucc V c t, PhiS_pos V c _ _ hz]
      iintro ⟨⟨⟨HS0, Hrest⟩, Hg⟩, Ho, ⟨%d0, H0⟩, ⟨%d1, H1⟩⟩
      iapply ((kernelRun0_C c (grid0.coords t) _ _ _ _ _ _ hRc hLc (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (cover0_C c _ _ _ _ _ _ _ _ _ _ _)
    · have hLc : ¬condL (grid0.coords t) := fun h => hL ((hcondL t).mp h)
      rw [Dat.leavesExact_idle (dat0 V c) 1 t (idleAt0_1 t hLc) (noFlush0_1 t hLc)]
      rw [outsAt0_B V c t hR hL]
      unfold sout0_B; (try dsimp only)
      rw [PhiS_castSucc V c t, PhiS_pos V c _ _ hz]
      iintro ⟨⟨⟨HS0, Hrest⟩, Hg⟩, Ho, ⟨%d0, H0⟩, ⟨%d1, H1⟩⟩
      iapply ((kernelRun0_B c (grid0.coords t) _ _ _ _ _ _ hRc hLc (iblk0 V c 0 t) _).2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _)
          iexact Hrest
        iexact Hg
      isplitl [Ho]; · iexact Ho
      isplitl [H0]; · iexact H0
      iexists _; iexact H1

/-- The region's body obligation at every point. -/
theorem body_obligation0 (c : Dev nD) : BodyObligation (dat0 (F := F) V c) (defs₀ (F := F)) Variants.none () Set.univ := fun t => by
  rw [bigSep_W0, bigSep_W0]
  exact sound_body0 V c t

/-- The plain invariant is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back: the accumulator's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hrest⟩, Hg⟩
  isplitl [HS0 Hrest]
  · isplitl [HS0]
    · iexists _; iexact HS0
    iexact Hrest
  iexact Hg

end Cert.Kernel.Hand

end
-- ==== Proof.K.Region1.lean ====
/-
  The second kernel region (the residual add) of the program, at ANY contents `V` of the TensorCore's buffers at
  the region's entry. At grid point `t` the body reads the point's block of the big array (window 0) and the
  point's block of the per-(sample, channel) vector (window 1), and stores into the output block (window 2) the
  first plus the second broadcast along the two spatial axes. The proof data name exactly that: each input
  window's staging buffer holds its block, the output's holds the body's one store read back. The region keeps
  nothing between points, so its invariant is only "the scoped buffers no window stages, and the generator
  register, at anything".
-/
import proofs.«167002_j68032281969033_1_alg».proof.Proof.Gen.Kernel.Launch
import proofs.«167002_j68032281969033_1_alg».proof.Proof.Gen.Kernel.Skeleton
import proofs.«167002_j68032281969033_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The big input's staging buffer holds the point's block, whether the pipeline fetched it at this point or the
    block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the small input: its block index depends on the first grid coordinate only, so it is fetched once
    per sixteen points and found in place at the others. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body stores -/

/-- The whole small block and the whole big block, as the rectangles the body's loads and its store name. -/
abbrev rS : Rect S8x128 := Rect.unit (s := S8x128) ![0, 0] S8x128.size inb_S8x128_S8x128_0_0
abbrev rB : Rect S8x128x8x128 := Rect.unit (s := S8x128x8x128) ![0, 0, 0, 0] S8x128x8x128.size inb_S8x128x8x128_S8x128x8x128_0_0_0_0

/-- The output block after the body: its one whole-block store of "big block plus broadcast small block". -/
def out1_2 (y0 : Vec F S8x128 .f32) (x0 : Vec F S8x128x8x128 .f32) : Vec F S8x128x8x128 .f32 :=
  View.canon [⟨rB, k1_pay1 (View.ld y0 rS) (View.ld x0 rB)⟩]

/-- That one store covers the output block. -/
theorem cover1_2 (p0 : Vec F S8x128x8x128 .f32) (y : S8x128x8x128.Idx) :
    ∃ pc ∈ ([⟨rB, p0⟩] : List (View.Piece (Elt F) S8x128x8x128 .f32)), y ∈ pc.1.set :=
  View.cover_of_tiled [⟨rB, p0⟩] S8x128x8x128.size (by rfl) y

set_option maxHeartbeats 1000000 in
/-- The body on whole staging memrefs: the inputs at `x0`, `y0`, the output at anything; it hands the inputs back
    as they were and the output at `out1_2 y0 x0`. -/
theorem sound_kernel1 (c : Dev nD) (E : Set ℕ) (i : grid1.Coords) (arg2 : Memref sig .tc .vmem S8x128x8x128 .f32) (harg2 : arg2.IsWhole)
    (arg3 : Memref sig .tc .vmem S8x128 .f32) (harg3 : arg3.IsWhole) (arg4 : Memref sig .tc .vmem S8x128x8x128 .f32) (harg4 : arg4.IsWhole)
    (x0 : Vec F S8x128x8x128 .f32) (y0 : Vec F S8x128 .f32) (K : PUnit → sProp 𝕄) :
    iprop(owns (c : Thread nD τ) arg2 fullShare x0 ∗ owns (c : Thread nD τ) arg3 fullShare y0 ∗ (∃ d, owns (c : Thread nD τ) arg4 fullShare d)
        ∗ (iprop(owns (c : Thread nD τ) arg2 fullShare x0 ∗ owns (c : Thread nD τ) arg3 fullShare y0 ∗ owns (c : Thread nD τ) arg4 fullShare (out1_2 y0 x0)) -∗ K ⟨⟩))
      ⊢ wp frame (wpE (defs₀ (F := F)) Variants.none c none) E (cc1_add_kernel i arg2 harg2 arg3 harg3 arg4 harg4) K := by
  simp only [cc1_add_kernel_eq_skeleton]; unfold cc1_add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 1 t) (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 1 t) (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem owed1 (c : Dev nD) (t) : (dat1 V c).owed t = 0 := rfl
theorem q1 (c : Dev nD) (w) : (dat1 V c).q w = fullShare := rfl
theorem Phi1 (c : Dev nD) (t) : (dat1 V c).Φ t = Pipeline.ΦA spec1 c := rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The region's body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of the whole program: its two kernel regions and the host operations between them, composed in @main's
  order. Between two items the core holds every unscoped buffer at a named valuation: the launch contents, then
  what the first region leaves in its output array (`outs 1`), then the host stretches' results, then what the
  second region leaves in the program's result (`outs 6`). Given that those two named contents ARE what the
  regions' proof data compute (`houts1`, `houts6`), every weakly fair execution terminates and the final memory
  holds every unscoped buffer at the last valuation; the frame claim and the result's contents are read off it.
-/
import proofs.«167002_j68032281969033_1_alg».proof.Proof.K.Region0
import proofs.«167002_j68032281969033_1_alg».proof.Proof.K.Region1
import proofs.«167002_j68032281969033_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg) (outs : Outs (F := F))

/-! ## The regions' entry contents, the proof data family, what rides along -/

/-- The buffers as the first region finds them (the launch contents) and as the second does (after the host
    operations on the first region's result), read at the TensorCore's references. -/
abbrev Ve0 : (c : Dev nD) → (b : Ref sig .tc) → Buf (Elt F) ((c : Thread nD τ).loc b) := fun c b => V0 m c b
abbrev Ve1 : (c : Dev nD) → (b : Ref sig .tc) → Buf (Elt F) ((c : Thread nD τ).loc b) := fun c b => V5 m outs c b

/-- Both regions' proof data, each at its entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m outs) c

abbrev 𝒱h : Variants := Variants.none
/-- No core owes another anything: no level is assigned. -/
abbrev Lh : GSem nD τ sig → Finset Unit := fun _ => ∅
abbrev lvh : GSem nD τ sig → Unit → ℕ := fun _ _ => 0
/-- What rides beside the buffers through every item: the generator register at some state, and nothing owed. -/
abbrev Rh (c : Dev nD) : sProp 𝕄 := iprop((∃ r, prngReg c r) ∗ ∃ W, owes (c : Thread nD τ) (0 : CellTallies nD τ sig Unit) W)
abbrev Eh : Fin 3 → Dev nD → sProp 𝕄 := fun _ c => Rh (F := F) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions' arrays at their exits -/

/-- After the first region each of its arrays holds what the next valuation says: the input unchanged, the output
    at `outs 1`. -/
theorem hF0 (houts1 : ∀ c, outs 1 main_v0 c = (dat0 (Ve0 m) c).arrAt 1 cfg0.N) (c : Dev nD) (w : Fin cfg0.W) :
    (dat0 (Ve0 m) c).arrAt w cfg0.N = V1 m outs c (Pipeline.arrRef spec0 w) :=
  match w with
  | ⟨0, _⟩ => ((dat0 (Ve0 m) c).arrAt_in 0 rfl _).trans ((A_eq0 (Ve0 m) c 0).trans (V1_of m outs c main_arg0 (by decide)).symm)
  | ⟨1, _⟩ => (houts1 c).symm.trans
      (show outs 1 main_v0 c = Function.update (V0 m c) (Proc.devRef .tc main_v0) (outs 1 main_v0 c) (Proc.devRef .tc main_v0) from
        (Function.update_self (β := fun b : DevRef τ sig => Buf (Elt F) (((c : Thread nD τ)).1, b)) (Proc.devRef .tc main_v0) (outs 1 main_v0 c) (V0 m c)).symm)

theorem hrest0 (c : Dev nD) : ∀ b : Ref sig .tc, b ∉ Finset.univ.image (Pipeline.arrRef spec0) → V1 m outs c b = V0 m c b :=
  fun b hb => V1_of m outs c b fun h => hb (Finset.mem_image.mpr ⟨1, Finset.mem_univ _, (List.mem_singleton.mp h).symm⟩)

/-- After the second region: the two inputs unchanged, the result at `outs 6`. -/
theorem hF1 (houts6 : ∀ c, outs 6 main_v20 c = (dat1 (Ve1 m outs) c).arrAt 2 cfg1.N) (c : Dev nD) (w : Fin cfg1.W) :
    (dat1 (Ve1 m outs) c).arrAt w cfg1.N = V6 m outs c (Pipeline.arrRef spec1 w) :=
  match w with
  | ⟨0, _⟩ => ((dat1 (Ve1 m outs) c).arrAt_in 0 rfl _).trans ((A_eq1 (Ve1 m outs) c 0).trans (V6_of m outs c main_arg0 (by decide)).symm)
  | ⟨1, _⟩ => ((dat1 (Ve1 m outs) c).arrAt_in 1 rfl _).trans ((A_eq1 (Ve1 m outs) c 1).trans (V6_of m outs c main_v19 (by decide)).symm)
  | ⟨2, _⟩ => (houts6 c).symm.trans
      (show outs 6 main_v20 c = Function.update (V5 m outs c) (Proc.devRef .tc main_v20) (outs 6 main_v20 c) (Proc.devRef .tc main_v20) from
        (Function.update_self (β := fun b : DevRef τ sig => Buf (Elt F) (((c : Thread nD τ)).1, b)) (Proc.devRef .tc main_v20) (outs 6 main_v20 c) (V5 m outs c)).symm)

theorem hrest1 (c : Dev nD) : ∀ b : Ref sig .tc, b ∉ Finset.univ.image (Pipeline.arrRef spec1) → V6 m outs c b = V5 m outs c b :=
  fun b hb => V6_of m outs c b fun h => hb (Finset.mem_image.mpr ⟨2, Finset.mem_univ _, (List.mem_singleton.mp h).symm⟩)

/-! ## The regions as segments -/

set_option backward.isDefEq.respectTransparency.types false in
/-- The first region: entered from every unscoped buffer at the launch contents, left at the next valuation. Its
    arrays are split out of the unscoped buffers and put back at their exit contents; the generator register goes
    into the region's invariant and comes back; nothing is owed; the kernel has no semaphore of its own. -/
def reg0 (houts1 : ∀ c, outs 1 main_v0 c = (dat0 (Ve0 m) c).arrAt 1 cfg0.N) :
    Pipeline.RegionSeg (pcfgs (F := F)) adm (pdats m outs) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ Lh lvh 0 fun _ _ => rfl
  pre c := iprop(StableHlo.held (c : Thread nD τ) (Pipeline.ucRefs τ sig) (V0 m c) ∗ Rh c)
  post c := iprop(StableHlo.held (c : Thread nD τ) (Pipeline.ucRefs τ sig) (V1 m outs c) ∗ Rh c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    refine BIBase.Entails.trans (hout0 (Ve0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (Ve0 m c) (fun b => V1 m outs c b) ((pdats m outs 0 c).arrAt · cfg0.N) (hF0 m outs houts1 c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer after the host operations, left at the last valuation. -/
def reg1 (houts6 : ∀ c, outs 6 main_v20 c = (dat1 (Ve1 m outs) c).arrAt 2 cfg1.N) :
    Pipeline.RegionSeg (pcfgs (F := F)) adm (pdats m outs) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (Ve1 m outs) c).loose
  hwaits := Pipeline.hwaits_of_owed_zero _ _ _ _ Lh lvh 1 fun _ _ => rfl
  pre c := iprop(StableHlo.held (c : Thread nD τ) (Pipeline.ucRefs τ sig) (V5 m outs c) ∗ Rh c)
  post c := iprop(iprop(StableHlo.held (c : Thread nD τ) (Pipeline.ucRefs τ sig) (V6 m outs c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (Ve1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (Ve1 m outs c) (fun b => V6 m outs c b) ((pdats m outs 1 c).arrAt · cfg1.N) (hF1 m outs houts6 c) (hrest1 m outs c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

set_option backward.isDefEq.respectTransparency.types false in
/-- Every weakly fair execution of @main from memory `m` with zero counters terminates, and the final memory holds
    every unscoped buffer of every core at the last valuation. -/
theorem run_all (houts1 : ∀ c, outs 1 main_v0 c = (dat0 (Ve0 m) c).arrAt 1 cfg0.N)
    (houts6 : ∀ c, outs 6 main_v20 c = (dat1 (Ve1 m outs) c).arrAt 2 cfg1.N) :
    θ_run defs (onTc (τ := τ) (main (F := F))) ⟨m, fun _ => 0, ρ⟩ (fun r => ∀ c : Dev nD,
      ∀ b ∈ Pipeline.ucRefs τ sig, r.2.mem (((c : Thread nD τ)).1, b) = V6 m outs c b) := by
  refine Pipeline.θ_run_regions_kit_dev (pcfgs (F := F)) adm (pdats m outs) () cellOf_inj emb₁ defs₀ 𝒱h Lh lvh m ρ main
    (segs m outs 𝒱h Lh lvh Eh () (pdats m outs) (reg0 m outs houts1) (reg1 m outs houts6))
    (fun c Q => by
      rewrite [main_chain c, Seg.run_eq_chain,
        show (segs m outs 𝒱h Lh lvh Eh () (pdats m outs) (reg0 m outs houts1) (reg1 m outs houts6) c).map Seg.prog = [
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rh c))
    (Tₙ := fun c => iprop(StableHlo.held (c : Thread nD τ) (Pipeline.ucRefs τ sig) (V6 m outs c) ∗ ∃ r, prngReg c r))
    (hch := fun c => ⟨.rfl, .rfl, .rfl, .rfl, .rfl, .rfl, .rfl⟩)
    (hinit := ?_)
    (QY := fun c s => ∀ b ∈ Pipeline.ucRefs τ sig, s.mem (((c : Thread nD τ)).1, b) = V6 m outs c b)
    (hfin := fun c s' => by
      iintro ⟨⟨Hh, -⟩, HSI⟩
      unfold StableHlo.held
      imodintro
      iapply (pointsTo_read_all (Pipeline.ucRefs τ sig) (fun b => (((c : Thread nD τ)).1, b)) (V6 m outs c) s')
      isplitl [Hh] <;> iassumption)
    (hQ := fun _ h => h)
  · refine Pipeline.initEach Lh lvh fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO

/-! ## What is read off the final memory -/

/-- The frame: every argument array ends as launched. -/
theorem frame (houts1 : ∀ c, outs 1 main_v0 c = (dat0 (Ve0 m) c).arrAt 1 cfg0.N)
    (houts6 : ∀ c, outs 6 main_v20 c = (dat1 (Ve1 m outs) c).arrAt 2 cfg1.N) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (V6_main_arg0 m outs c),
     (h c _ (mem_uc main_arg1 (by decide))).trans (V6_main_arg1 m outs c),
     (h c _ (mem_uc main_arg2 (by decide))).trans (V6_main_arg2 m outs c),
     (h c _ (mem_uc main_arg3 (by decide))).trans (V6_main_arg3 m outs c),
     (h c _ (mem_uc main_arg4 (by decide))).trans (V6_main_arg4 m outs c),
     (h c _ (mem_uc main_arg5 (by decide))).trans (V6_main_arg5 m outs c),
     (h c _ (mem_uc main_arg6 (by decide))).trans (V6_main_arg6 m outs c)⟩) (run_all m ρ outs houts1 houts6)

/-- The same run with the result named: it ends at `outs 6`. -/
theorem run_result (houts1 : ∀ c, outs 1 main_v0 c = (dat0 (Ve0 m) c).arrAt 1 cfg0.N)
    (houts6 : ∀ c, outs 6 main_v20 c = (dat1 (Ve1 m outs) c).arrAt 2 cfg1.N) :
    θ_run defs (onTc (τ := τ) (main (F := F))) ⟨m, fun _ => 0, ρ⟩ (fun r => ∀ c : Dev nD,
      r.2.mem ((c.tc : Thread nD τ).loc main_v20) = outs 6 main_v20 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v20 (by decide))).trans (Function.update_self _ _ _),
     (h c _ (mem_uc main_arg0 (by decide))).trans (V6_main_arg0 m outs c),
     (h c _ (mem_uc main_arg1 (by decide))).trans (V6_main_arg1 m outs c),
     (h c _ (mem_uc main_arg2 (by decide))).trans (V6_main_arg2 m outs c),
     (h c _ (mem_uc main_arg3 (by decide))).trans (V6_main_arg3 m outs c),
     (h c _ (mem_uc main_arg4 (by decide))).trans (V6_main_arg4 m outs c),
     (h c _ (mem_uc main_arg5 (by decide))).trans (V6_main_arg5 m outs c),
     (h c _ (mem_uc main_arg6 (by decide))).trans (V6_main_arg6 m outs c)⟩) (run_all m ρ outs houts1 houts6)

/-! ## The named contents, chosen

`outs` is chosen so that its two read points are what the regions' proof data compute. The second region's
entry contents read only the first region's named contents, so the choice is made in two steps. -/

/-- Step one: the first region's output array at what its proof data compute; elsewhere the launch contents. -/
def outsA : Outs (F := F) := fun _ r c =>
  if h : r = main_v0 then (by subst h; exact (dat0 (Ve0 m) c).arrAt 1 cfg0.N) else m ((c : Thread nD τ).loc r)

/-- Step two: the program's result at what the second region's proof data compute from step one. -/
def outsF : Outs (F := F) := fun n r c =>
  if n = 6 then
    (if h : r = main_v20 then (by subst h; exact (dat1 (Ve1 m (outsA m)) c).arrAt 2 cfg1.N) else m ((c : Thread nD τ).loc r))
  else outsA m n r c

theorem outsA_v0 (n : ℕ) (c : Dev nD) : outsA m n main_v0 c = (dat0 (Ve0 m) c).arrAt 1 cfg0.N := by
  unfold outsA; rw [dif_pos rfl]

theorem outsF_one (c : Dev nD) : outsF m 1 main_v0 c = outsA m 1 main_v0 c := by
  unfold outsF; rw [if_neg (by decide)]

theorem outsF_six (c : Dev nD) : outsF m 6 main_v20 c = (dat1 (Ve1 m (outsA m)) c).arrAt 2 cfg1.N := by
  unfold outsF; rw [if_pos rfl, dif_pos rfl]

/-- The valuations up to the second region's entry read `outs` at the first region's output only. -/
theorem V5_congr (o o' : Outs (F := F)) (h : ∀ c, o 1 main_v0 c = o' 1 main_v0 c) (c : Dev nD) : V5 m o c = V5 m o' c := by
  show StableHlo.after hostOps1_3 (StableHlo.after hostOps1_2 (StableHlo.after hostOps1_1 (StableHlo.after hostOps1
      (Function.update (V0 m c) (Proc.devRef .tc main_v0) (o 1 main_v0 c))))) = _
  rw [h c]

theorem Ve1_outsF : Ve1 m (outsF m) = Ve1 m (outsA m) := by
  funext c b
  show V5 m (outsF m) c b = V5 m (outsA m) c b
  rw [V5_congr m (outsF m) (outsA m) (outsF_one m) c]

theorem houts1F (c : Dev nD) : outsF m 1 main_v0 c = (dat0 (Ve0 m) c).arrAt 1 cfg0.N :=
  (outsF_one m c).trans (outsA_v0 m 1 c)

theorem houts6F (c : Dev nD) : outsF m 6 main_v20 c = (dat1 (Ve1 m (outsF m)) c).arrAt 2 cfg1.N := by
  rw [Ve1_outsF]; exact outsF_six m c

/-- The frame of the program, and its run with the result named. -/
theorem frame_main :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame m ρ (outsF m) (houts1F m) (houts6F m)

theorem run_main :
    θ_run defs (onTc (τ := τ) (main (F := F))) ⟨m, fun _ => 0, ρ⟩ (fun r => ∀ c : Dev nD,
      r.2.mem ((c.tc : Thread nD τ).loc main_v20) = outsF m 6 main_v20 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_result m ρ (outsF m) (houts1F m) (houts6F m)

end Cert.Kernel.Hand

end
-- ==== Proof.Spec.lean ====
/-
  The mathematics both programs are compared against, free of either program: the spatial mean of one
  channel of one sample as a double sum over the 128 x 128 plane times the reciprocal of its size, and the
  three float constants that meet in it: zero, the plane's size 16384 = 2^14, and its reciprocal 2^-14, each an
  exact binary value, so that dividing by the one is multiplying by the other on every extended real.
-/
import Idealize.ShloMosaic.PureOps.Ideal
import Idealize.ShloMosaic.Lib.ValueIdx

noncomputable section

open scoped BigOperators

namespace Cert.Hand.Spec

open Idealize.ShloMosaic Idealize.ShloMosaic.ValueIdx

/-- The mean over the spatial plane of channel `ch` of sample `b`: the plane's sum times `1 / 16384`. -/
def meanC (x : (⟨4, ![8, 512, 128, 128]⟩ : Shape).Idx → EReal) (b : Fin 8) (ch : Fin 512) : EReal :=
  (∑ h : Fin 128, ∑ w : Fin 128, x (ix4 b ch h w)) * ((1 / 16384 : ℝ) : EReal)

/-- The pattern of `+0.0` denotes `0`. -/
theorem ofBits_zero : Ideal.ofBits .f32 0x00000000#32 = 0 := by
  simp [Ideal.ofBits, Ideal.ieee]

/-- The pattern `0x46800000` denotes `16384 = 2^14`. -/
theorem ofBits_16384 : Ideal.ofBits .f32 0x46800000#32 = ((16384 : ℝ) : EReal) := by
  simp [Ideal.ofBits, Ideal.ieee, -EReal.coe_mul]; norm_num

/-- The pattern `0x38800000` denotes `1 / 16384 = 2^-14`. -/
theorem ofBits_inv16384 : Ideal.ofBits .f32 0x38800000#32 = ((1 / 16384 : ℝ) : EReal) := by
  simp [Ideal.ofBits, Ideal.ieee, -EReal.coe_mul]; norm_num

end Cert.Hand.Spec

end
-- ==== Proof.Val0a.lean ====
/-
  What the first region's accumulator and output block hold, as plain sums at the ideal instance: after the
  write-out point of a channel block the output block holds, at sample `s` and channel `k` of the block, the sum
  over the block's sixteen slabs of each slab's sum over its 8 rows and 128 columns, times 1 / 16384.
-/
import proofs.«167002_j68032281969033_1_alg».proof.Proof.KI.Region0
import proofs.«167002_j68032281969033_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

section Pieces
variable {F : FTy → Type} [FloatOps F]

/-- The zero offsets of a whole block. -/
theorem hz2 : (![0, 0] : Fin 2 → Nat) = fun _ => 0 := funext fun a => by fin_cases a <;> rfl
theorem hz4 : (![0, 0, 0, 0] : Fin 4 → Nat) = fun _ => 0 := funext fun a => by fin_cases a <;> rfl

theorem sout0_B_eq (c : Dev nD) (i : grid0.Coords) (a2 : Memref sig .tc .vmem S8x128x8x128 .f32) (h2 : a2.IsWhole) (a3 : Memref sig .tc .vmem S8x128 .f32) (h3 : a3.IsWhole) (a4 : Memref sig .tc .vmem S8x128 .f32) (h4 : a4.IsWhole) (hR : ¬condR i) (hL : ¬condL i)
    (x0 : Vec F S8x128x8x128 .f32) (xs0 : Vec F S8x128 .f32) :
    sout0_B c i a2 h2 a3 h3 a4 h4 hR hL x0 xs0 = k0_pay2 x0 xs0 := by
  unfold sout0_B
  rw [View.read_writes_eq_canon _ _ _ (scover0_B c i a2 h2 a3 h3 a4 h4 hR hL x0 xs0)]
  unfold kernelRun0_B
  dsimp only
  sl_unfold_words
  rw [View.canon_unit_zero hz2]
  simp only [View.readAt_eq_ld, h2.read_unread, h4.read_unread, View.ld_unit_zero (S := S8x128) hz2, View.ld_unit_zero (S := S8x128x8x128) hz4]

theorem sout0_A_eq (c : Dev nD) (i : grid0.Coords) (a2 : Memref sig .tc .vmem S8x128x8x128 .f32) (h2 : a2.IsWhole) (a3 : Memref sig .tc .vmem S8x128 .f32) (h3 : a3.IsWhole) (a4 : Memref sig .tc .vmem S8x128 .f32) (h4 : a4.IsWhole) (hR : condR i) (hL : ¬condL i)
    (x0 : Vec F S8x128x8x128 .f32) :
    sout0_A c i a2 h2 a3 h3 a4 h4 hR hL x0 = k0_pay2 x0 (k0_pay1 (F := F)) := by
  unfold sout0_A
  rw [View.read_writes_eq_canon _ _ _ (scover0_A c i a2 h2 a3 h3 a4 h4 hR hL x0)]
  unfold kernelRun0_A
  dsimp only
  sl_unfold_words
  rw [View.canon_cons_unit_zero (S := S8x128) hz2, View.readCov_unit_zero (S := S8x128) _ hz2]
  simp only [View.readAt_eq_ld, h2.read_unread, View.ld_unit_zero (S := S8x128x8x128) hz4]

theorem sout0_C_eq (c : Dev nD) (i : grid0.Coords) (a2 : Memref sig .tc .vmem S8x128x8x128 .f32) (h2 : a2.IsWhole) (a3 : Memref sig .tc .vmem S8x128 .f32) (h3 : a3.IsWhole) (a4 : Memref sig .tc .vmem S8x128 .f32) (h4 : a4.IsWhole) (hR : ¬condR i) (hL : condL i)
    (x0 : Vec F S8x128x8x128 .f32) (xs0 : Vec F S8x128 .f32) :
    sout0_C c i a2 h2 a3 h3 a4 h4 hR hL x0 xs0 = k0_pay2 x0 xs0 := by
  unfold sout0_C
  rw [View.read_writes_eq_canon _ _ _ (scover0_C c i a2 h2 a3 h3 a4 h4 hR hL x0 xs0)]
  unfold kernelRun0_C
  dsimp only
  sl_unfold_words
  rw [View.canon_unit_zero hz2]
  simp only [View.readAt_eq_ld, h2.read_unread, h4.read_unread, View.ld_unit_zero (S := S8x128) hz2, View.ld_unit_zero (S := S8x128x8x128) hz4]

theorem out0_C_eq (c : Dev nD) (i : grid0.Coords) (a2 : Memref sig .tc .vmem S8x128x8x128 .f32) (h2 : a2.IsWhole) (a3 : Memref sig .tc .vmem S8x128 .f32) (h3 : a3.IsWhole) (a4 : Memref sig .tc .vmem S8x128 .f32) (h4 : a4.IsWhole) (hR : ¬condR i) (hL : condL i)
    (x0 : Vec F S8x128x8x128 .f32) (xs0 : Vec F S8x128 .f32) :
    out0_C c i a2 h2 a3 h3 a4 h4 hR hL x0 xs0 = k0_pay3 (k0_pay2 x0 xs0) := by
  unfold out0_C
  rw [View.read_writes_eq_canon _ _ _ (cover0_C c i a2 h2 a3 h3 a4 h4 hR hL x0 xs0)]
  unfold kernelRun0_C
  dsimp only
  sl_unfold_words
  rw [View.canon_unit_zero hz2, View.readCov_unit_zero (S := S8x128) _ hz2]
  simp only [View.readAt_eq_ld, h2.read_unread, h4.read_unread, View.ld_unit_zero (S := S8x128) hz2, View.ld_unit_zero (S := S8x128x8x128) hz4]
end Pieces

section AtIdeal

/-- Putting the row on the third axis and then the column on the fourth of the index (s, k) gives (s, k, r, w). -/
theorem lift_lift (s : Fin 8) (k : Fin 128) (r : Fin 8) (w : Fin 128) :
    reduces_S8x128x8x128_S8x128x8.lift (reduces_S8x128x8_S8x128.lift (ix2 s k) r) w = ix4 s k r w := by
  funext a
  match a with
  | ⟨0, _⟩ => rfl
  | ⟨1, _⟩ => rfl
  | ⟨2, _⟩ => rfl
  | ⟨3, _⟩ => rfl

/-- The reset's payload is zero everywhere. -/
theorem k0_pay1_apply (s : Fin 8) (k : Fin 128) : (k0_pay1 (F := Ideal)) (ix2 s k) = 0 := by
  unfold k0_pay1
  exact (congrFun (shapeCast_self _ shapeCasts_S8x128_S8x128) (ix2 s k)).trans Cert.Hand.Spec.ofBits_zero

/-- The update's payload at (s, k): the accumulator there plus the slab's sum over its 8 rows and 128 columns. -/
theorem k0_pay2_apply (x0 : FVec Ideal S8x128x8x128 .f32) (a : FVec Ideal S8x128 .f32) (s : Fin 8) (k : Fin 128) :
    k0_pay2 (F := Ideal) x0 a (ix2 s k) = a (ix2 s k) + ∑ r : Fin 8, ∑ w : Fin 128, x0 (ix4 s k r w) := by
  unfold k0_pay2
  refine (congrFun (shapeCast_self _ shapeCasts_S8x128_S8x128) (ix2 s k)).trans ?_
  refine congrArg (a (ix2 s k) + ·) ?_
  refine (Ideal.multiReduction_add_single (multiReduction (F := Ideal) .add [3] S8x128x8 x0 0x00000000#32 reduces_S8x128x8x128_S8x128x8 (.inl rfl) rfl) 0x00000000#32 reduces_S8x128x8_S8x128 (.inl rfl) rfl (ix2 s k)).trans ?_
  refine Finset.sum_congr rfl fun r _ => ?_
  refine (Ideal.multiReduction_add_single x0 0x00000000#32 reduces_S8x128x8x128_S8x128x8 (.inl rfl) rfl (reduces_S8x128x8_S8x128.lift (ix2 s k) r)).trans ?_
  refine Finset.sum_congr rfl fun w _ => ?_
  exact congrArg x0 (lift_lift s k r w)

/-- The write-out's payload at (s, k): the accumulator there times 1 / 16384. -/
theorem k0_pay3_apply (a : FVec Ideal S8x128 .f32) (s : Fin 8) (k : Fin 128) :
    k0_pay3 (F := Ideal) a (ix2 s k) = a (ix2 s k) * ((1 / 16384 : ℝ) : EReal) :=
  congrArg (a (ix2 s k) * ·) Cert.Hand.Spec.ofBits_inv16384

end AtIdeal

section Slab
variable (V : (c : Dev nD) → (b : Ref sig .tc) → Buf (Elt Ideal) ((c : Thread nD τ).loc b))

/-- The big input array as the region finds it, at its literal type. -/
abbrev xarr (c : Dev nD) : S8x512x128x128.Idx → EReal := V c main_arg0

/-- The input window's block index at point t: channel block t / 16 on the channel axis, slab t % 16 on the row
    axis, 0 on the other two. -/
theorem idx0 : ∀ t : Fin grid0.N, win0_0.index t (1 : Fin 4) = t.val / 16 ∧ win0_0.index t (2 : Fin 4) = t.val % 16
    ∧ win0_0.index t 0 = 0 ∧ win0_0.index t 3 = 0 := by decide +kernel

/-- The slab at point t read at (s, k, r, w) is the array at sample s, channel 128 (t / 16) + k, row
    8 (t % 16) + r, column w: a block's element sits at the block index times the block's size plus its own
    coordinate. -/
theorem iblk0_apply (c : Dev nD) (t : Fin cfg0.N) (s : Fin 8) (k : Fin 128) (r : Fin 8) (w : Fin 128)
    (hk : 128 * (t.val / 16) + k.val < 512) (hr : 8 * (t.val % 16) + r.val < 128) :
    (iblk0 (F := Ideal) V c 0 t : S8x128x8x128.Idx → EReal) (ix4 s k r w)
      = xarr V c (ix4 s (⟨128 * (t.val / 16) + k.val, hk⟩ : Fin 512) (⟨8 * (t.val % 16) + r.val, hr⟩ : Fin 128) w) := by
  obtain ⟨i1, i2, i0, i3⟩ := idx0 t
  show V c main_arg0 (((cfg0.win 0).blk t).view.emb (ix4 s k r w)) = V c main_arg0 _
  refine congrArg (V c main_arg0) (funext fun a => Fin.ext ?_)
  match a with
  | ⟨0, _⟩ => show win0_0.index t 0 * 8 + 1 * s.val = s.val; rw [i0]; omega
  | ⟨1, _⟩ => show win0_0.index t 1 * 128 + 1 * k.val = 128 * (t.val / 16) + k.val; rw [i1]; omega
  | ⟨2, _⟩ => show win0_0.index t 2 * 8 + 1 * r.val = 8 * (t.val % 16) + r.val; rw [i2]; omega
  | ⟨3, _⟩ => show win0_0.index t 3 * 128 + 1 * w.val = w.val; rw [i3]; omega
end Slab

section Accumulate
variable (V : (c : Dev nD) → (b : Ref sig .tc) → Buf (Elt Ideal) ((c : Thread nD τ).loc b))

/-- The input slab at point t, at its literal type. -/
abbrev xblk (c : Dev nD) (t : Fin cfg0.N) : FVec Ideal S8x128x8x128 .f32 := iblk0 (F := Ideal) V c 0 t

/-- The array read at a channel and a row given as natural numbers (zero outside the array, where nothing below
    reads it). -/
def xat (c : Dev nD) (s : Fin 8) (ch row : ℕ) (w : Fin 128) : EReal :=
  if h : ch < 512 ∧ row < 128 then xarr V c (ix4 s (⟨ch, h.1⟩ : Fin 512) (⟨row, h.2⟩ : Fin 128) w) else 0

theorem xat_eq (c : Dev nD) (s : Fin 8) (ch row : ℕ) (w : Fin 128) (hc : ch < 512) (hr : row < 128) :
    xat V c s ch row w = xarr V c (ix4 s (⟨ch, hc⟩ : Fin 512) (⟨row, hr⟩ : Fin 128) w) := dif_pos ⟨hc, hr⟩

/-- The sum of slab j (8 rows, 128 columns) of channel k of channel block q at sample s. -/
def slab (c : Dev nD) (q : ℕ) (s : Fin 8) (k : Fin 128) (j : ℕ) : EReal :=
  ∑ r : Fin 8, ∑ w : Fin 128, xat V c s (128 * q + k.val) (8 * j + r.val) w

/-- The sum over the slab the window hands point t is slab t % 16 of channel block t / 16. -/
theorem slab_read (c : Dev nD) (t : Fin cfg0.N) (s : Fin 8) (k : Fin 128) :
    ∑ r : Fin 8, ∑ w : Fin 128, xblk V c t (ix4 s k r w) = slab V c (t.val / 16) s k (t.val % 16) := by
  have hN : cfg0.N = 64 := N_0
  have ht := t.isLt
  refine Finset.sum_congr rfl fun r _ => Finset.sum_congr rfl fun w _ => ?_
  exact (iblk0_apply V c t s k r w (by omega) (by omega)).trans (xat_eq V c s _ _ w (by omega) (by omega)).symm

/-- After point n the accumulator holds, at sample s and channel k of the block, the sum of the slabs 0 to n % 16
    of channel block n / 16: the reset point starts it at slab 0, every later point of the block adds its slab. -/
theorem acc_at (c : Dev nD) (s : Fin 8) (k : Fin 128) : ∀ (n : ℕ) (hn : n < cfg0.N),
    ((outsAt0 (F := Ideal) V c n hn).2 : S8x128.Idx → EReal) (ix2 s k)
      = ∑ j ∈ Finset.range (n % 16 + 1), slab V c (n / 16) s k j := by
  intro n
  induction n using Nat.strong_induction_on with
  | _ n ih =>
    intro hn
    by_cases hR : n % 16 = 0
    · rw [outsAt0_A V c ⟨n, hn⟩ hR]; dsimp only
      refine (congrFun (sout0_A_eq (F := Ideal) c (grid0.coords ⟨n, hn⟩) (ms0_0 ⟨n, hn⟩) (hs0_0 ⟨n, hn⟩) (ms0_1 ⟨n, hn⟩) (hs0_1 ⟨n, hn⟩) scM0 (Memref.isWhole_whole _) _ _ (xblk V c ⟨n, hn⟩)) (ix2 s k)).trans ?_
      refine (k0_pay2_apply (xblk V c ⟨n, hn⟩) (k0_pay1 (F := Ideal)) s k).trans ?_
      rw [k0_pay1_apply, zero_add, slab_read V c ⟨n, hn⟩ s k]
      dsimp only
      rw [hR, Finset.sum_range_one]
    · have hz : n ≠ 0 := fun h => hR (by rw [h])
      have e1 : (n - 1) / 16 = n / 16 := by omega
      have e2 : (n - 1) % 16 + 1 = n % 16 := by omega
      have hn' : n - 1 < cfg0.N := by omega
      by_cases hL : n % 16 = 15
      · rw [outsAt0_C V c ⟨n, hn⟩ hR hL]; dsimp only
        refine (congrFun (sout0_C_eq (F := Ideal) c (grid0.coords ⟨n, hn⟩) (ms0_0 ⟨n, hn⟩) (hs0_0 ⟨n, hn⟩) (ms0_1 ⟨n, hn⟩) (hs0_1 ⟨n, hn⟩) scM0 (Memref.isWhole_whole _) _ _ (xblk V c ⟨n, hn⟩) (outsAt0 (F := Ideal) V c (n - 1) hn').2) (ix2 s k)).trans ?_
        refine (k0_pay2_apply (xblk V c ⟨n, hn⟩) (outsAt0 (F := Ideal) V c (n - 1) hn').2 s k).trans ?_
        rw [ih (n - 1) (by omega) hn', slab_read V c ⟨n, hn⟩ s k]
        dsimp only
        rw [e1, e2, Finset.sum_range_succ]
      · rw [outsAt0_B V c ⟨n, hn⟩ hR hL]; dsimp only
        refine (congrFun (sout0_B_eq (F := Ideal) c (grid0.coords ⟨n, hn⟩) (ms0_0 ⟨n, hn⟩) (hs0_0 ⟨n, hn⟩) (ms0_1 ⟨n, hn⟩) (hs0_1 ⟨n, hn⟩) scM0 (Memref.isWhole_whole _) _ _ (xblk V c ⟨n, hn⟩) (outsAt0 (F := Ideal) V c (n - 1) hn').2) (ix2 s k)).trans ?_
        refine (k0_pay2_apply (xblk V c ⟨n, hn⟩) (outsAt0 (F := Ideal) V c (n - 1) hn').2 s k).trans ?_
        rw [ih (n - 1) (by omega) hn', slab_read V c ⟨n, hn⟩ s k]
        dsimp only
        rw [e1, e2, Finset.sum_range_succ]

/-- At a write-out point `t` (the last slab of channel block `t / 16`) the output block holds the block's plane
    sums times 1 / 16384. -/
theorem out_at (c : Dev nD) (t : Fin cfg0.N) (hL : t.val % 16 = 15) (s : Fin 8) (k : Fin 128) :
    ((outsAt0 (F := Ideal) V c t.val t.isLt).1 : S8x128.Idx → EReal) (ix2 s k)
      = (∑ j : Fin 16, ∑ r : Fin 8, ∑ w : Fin 128,
          xarr V c (ix4 s (⟨128 * (t.val / 16) + k.val, by have := t.isLt; have : cfg0.N = 64 := N_0; omega⟩ : Fin 512) (⟨8 * j.val + r.val, by omega⟩ : Fin 128) w))
        * ((1 / 16384 : ℝ) : EReal) := by
  have hN : cfg0.N = 64 := N_0
  have ht := t.isLt
  have hR : ¬t.val % 16 = 0 := by omega
  have e1 : (t.val - 1) / 16 = t.val / 16 := by omega
  have e2 : (t.val - 1) % 16 + 1 = t.val % 16 := by omega
  have hn' : t.val - 1 < cfg0.N := by omega
  rw [outsAt0_C V c t hR hL]; dsimp only
  refine (congrFun (out0_C_eq (F := Ideal) c (grid0.coords t) (ms0_0 t) (hs0_0 t) (ms0_1 t) (hs0_1 t) scM0 (Memref.isWhole_whole _) _ _ (xblk V c t) (outsAt0 (F := Ideal) V c (t.val - 1) hn').2) (ix2 s k)).trans ?_
  refine (k0_pay3_apply (k0_pay2 (F := Ideal) (xblk V c t) (outsAt0 (F := Ideal) V c (t.val - 1) hn').2) s k).trans ?_
  refine congrArg (· * ((1 / 16384 : ℝ) : EReal)) ?_
  refine (k0_pay2_apply (xblk V c t) (outsAt0 (F := Ideal) V c (t.val - 1) hn').2 s k).trans ?_
  rw [acc_at V c s k (t.val - 1) hn', slab_read V c t s k, e1, e2, ← Finset.sum_range_succ, hL, Finset.sum_range]
  refine Finset.sum_congr rfl fun j _ => ?_
  refine Finset.sum_congr rfl fun r _ => Finset.sum_congr rfl fun w _ => ?_
  exact xat_eq V c s _ _ w (by omega) (by omega)
end Accumulate

end Cert.KernelIdeal.Hand

end
-- ==== Proof.Val0b.lean ====
/-
  From the first region's blocks to its output array: the array the region leaves holds, at sample `b` and
  channel `ch`, the mean of that channel's plane. The write-out point of channel block `ch / 128` writes the
  block that covers `ch`; the block's sixteen slab sums of 8 rows each are the plane's sum over its 128 rows.
-/
import proofs.«167002_j68032281969033_1_alg».proof.Proof.Val0a
import proofs.«167002_j68032281969033_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Sixteen slabs of eight rows are the 128 rows: slab `j`, row `r` of it is row `8 j + r`. -/
def slabEquiv : Fin 16 × Fin 8 ≃ Fin 128 where
  toFun p := ⟨8 * p.1.val + p.2.val, by omega⟩
  invFun h := (⟨h.val / 8, by omega⟩, ⟨h.val % 8, by omega⟩)
  left_inv p := by
    obtain ⟨j, r⟩ := p
    apply Prod.ext <;> apply Fin.ext <;> simp only <;> omega
  right_inv h := by apply Fin.ext; simp only; omega

theorem sum_slabs {M : Type*} [AddCommMonoid M] (g : Fin 128 → M) :
    ∑ j : Fin 16, ∑ r : Fin 8, g ⟨8 * j.val + r.val, by omega⟩ = ∑ h : Fin 128, g h := by
  rw [← Fintype.sum_prod_type' (f := fun (j : Fin 16) (r : Fin 8) => g ⟨8 * j.val + r.val, by omega⟩)]
  exact Fintype.sum_equiv slabEquiv _ _ (fun _ => rfl)

theorem idx_out : ∀ t : Fin cfg0.N, win0_1.index t (0 : Fin 2) = 0 ∧ win0_1.index t (1 : Fin 2) = t.val / 16 :=
  (by decide +kernel : ∀ t : Fin grid0.N, win0_1.index t (0 : Fin 2) = 0 ∧ win0_1.index t (1 : Fin 2) = t.val / 16)

/-- The region's output array as one function of the input: at sample `b` and channel `ch` the mean of the plane. -/
abbrev meanArr (c : Dev nD) : S8x512.Idx → EReal := fun j => Cert.Hand.Spec.meanC (V c main_arg0) (j 0) (j 1)

/-- Where an element of the output block at point `t` sits in the output array: same sample, channel
    `128 (t / 16) + k`. -/
theorem emb_out (t : Fin cfg0.N) (s : Fin 8) (k : Fin 128) :
    ((cfg0.win 1).blk t).view.emb (ix2 s k)
      = ix2 s (⟨128 * (t.val / 16) + k.val, by have := t.isLt; have : cfg0.N = 64 := N_0; omega⟩ : Fin 512) := by
  obtain ⟨e0, e1⟩ := idx_out t
  funext a; apply Fin.ext
  match a with
  | ⟨0, _⟩ => show win0_1.index t (0 : Fin 2) * 8 + 1 * s.val = s.val; omega
  | ⟨1, _⟩ => show win0_1.index t (1 : Fin 2) * 128 + 1 * k.val = 128 * (t.val / 16) + k.val; omega

theorem flushed_mean (c : Dev nD) (t : Fin cfg0.N) (hL : t.val % 16 = 15) :
    (dat0 (F := Ideal) V c).flushed 1 t = ((cfg0.win 1).blk t).view.read (Elt Ideal) (meanArr V c) := by
  show (cfg0.win 1).cut (cfg0.grid.coords t) ((dat0 (F := Ideal) V c).after 1 t) = _
  rw [after0_1]
  funext y
  obtain ⟨s, k, rfl⟩ : ∃ (s : Fin 8) (k : Fin 128), y = ix2 s k := ⟨y 0, y 1, eq_ix2 y⟩
  rw [View.read_apply]
  show ((outsAt0 (F := Ideal) V c t.val t.isLt).1 : S8x128.Idx → EReal) (ix2 s k) = meanArr V c (((cfg0.win 1).blk t).view.emb (ix2 s k))
  refine (out_at V c t hL s k).trans ?_
  refine Eq.trans ?_ (congrArg (meanArr V c) (emb_out t s k)).symm
  show _ * _ = (∑ h : Fin 128, ∑ w : Fin 128, xarr V c (ix4 s (⟨128 * (t.val / 16) + k.val, by have := t.isLt; have : cfg0.N = 64 := N_0; omega⟩ : Fin 512) h w)) * _
  congr 1
  exact sum_slabs (fun h => ∑ w : Fin 128, xarr V c (ix4 s (⟨128 * (t.val / 16) + k.val, by have := t.isLt; have : cfg0.N = 64 := N_0; omega⟩ : Fin 512) h w))

/-- An index of the output array is in the block point `t` writes iff each coordinate is in the block's range
    on its axis. -/
theorem mem_blk_out (t : Fin cfg0.N) (i : S8x512.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v0).slice (win0_1.rect t)).set ↔ _
  rw [View.set_slice_whole, Rect.mem_set_unit]
  exact Iff.rfl

/-- Every index of the output array is in the block of a write-out point: channel `ch` is in channel block
    `ch / 128`, whose last slab is point `16 (ch / 128) + 15`. -/
theorem cover_out (i : S8x512.Idx) :
    ∃ t : Fin cfg0.N, (cfg0.win 1).flush t = true ∧ i ∈ ((cfg0.win 1).blk t).view.set := by
  have hN : cfg0.N = 64 := N_0
  have h0 : (i 0).val < 8 := (i 0).isLt
  have h1 : (i 1).val < 512 := (i 1).isLt
  obtain ⟨t, ht⟩ : ∃ t : Fin cfg0.N, t.val = 16 * ((i 1).val / 128) + 15 := ⟨⟨16 * ((i 1).val / 128) + 15, by omega⟩, rfl⟩
  obtain ⟨e0, e1⟩ := idx_out t
  refine ⟨t, (flush0_1 t).mpr (by omega), ?_⟩
  rw [mem_blk_out]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- The first region's output array, index by index: the plane's mean. -/
theorem mean_arr (c : Dev nD) (b : Fin 8) (ch : Fin 512) :
    ((dat0 (F := Ideal) V c).arrAt 1 cfg0.N : S8x512.Idx → EReal) (ix2 b ch) = Cert.Hand.Spec.meanC (V c main_arg0) b ch :=
  congrFun ((dat0 (F := Ideal) V c).arrAt_eq_of_cover 1 (meanArr V c)
    (fun t hf => flushed_mean V c t ((flush0_1 t).mp hf)) cover_out) (ix2 b ch)

end Cert.KernelIdeal.Hand

end
-- ==== Proof.Val1.lean ====
/-
  The second region's output array, index by index: at every grid point the body stores the point's block of the
  big input plus the point's block of the 8 x 512 vector broadcast along the two spatial axes; the blocks tile the
  array, so the array the region leaves is the big input plus the vector at the sample and channel.
-/
import proofs.«167002_j68032281969033_1_alg».proof.Proof.KI.Region1
import proofs.«167002_j68032281969033_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The big input, the 8 x 512 vector and the region's output array, each at its literal type. -/
abbrev xarr1 (c : Dev nD) : S8x512x128x128.Idx → EReal := V c main_arg0
abbrev yarr1 (c : Dev nD) : S8x512.Idx → EReal := V c main_v19
abbrev oarr1 (c : Dev nD) : S8x512x128x128.Idx → EReal := (dat1 (F := Ideal) V c).arrAt 2 cfg1.N

/-- The body's payload at an index: the big block there plus the small block at the sample and channel. -/
theorem add_payload_apply (y0 : Vec Ideal S8x128 .f32) (x0 : Vec Ideal S8x128x8x128 .f32) (s : Fin 8) (k : Fin 128) (r : Fin 8) (w : Fin 128) :
    k1_pay1 (F := Ideal) y0 x0 (ix4 s k r w) = x0 (ix4 s k r w) + y0 (ix2 s k) := by
  unfold k1_pay1
  rw [addf_apply]
  congr 1
  rw [shapeCast_self]
  refine (broadcastTo_apply _ _ (ix4 s k r w) (ix4 s k (0 : Fin 1) (0 : Fin 1)) ?_).trans ?_
  · intro a
    match a with
    | ⟨0, _⟩ => rfl
    | ⟨1, _⟩ => rfl
    | ⟨2, _⟩ => rfl
    | ⟨3, _⟩ => rfl
  · exact shapeCast_apply _ _ _ (ix2 s k) (by
      rw [Shape.rowMajor_val_two, Shape.rowMajor_val_four]
      show s.val * 128 + k.val = ((s.val * 128 + k.val) * 1 + 0) * 1 + 0
      omega)

theorem zero_offsets4_add : (![0, 0, 0, 0] : Fin 4 → Nat) = fun _ => 0 := funext fun a => by fin_cases a <;> rfl
theorem zero_offsets2_add : (![0, 0] : Fin 2 → Nat) = fun _ => 0 := funext fun a => by fin_cases a <;> rfl

/-- The output block after the body is the payload of the two input blocks. -/
theorem out1_2_eq_payload (y0 : Vec Ideal S8x128 .f32) (x0 : Vec Ideal S8x128x8x128 .f32) :
    out1_2 (F := Ideal) y0 x0 = k1_pay1 (F := Ideal) y0 x0 := by
  unfold out1_2
  rw [View.canon_unit_zero zero_offsets4_add]
  simp only [View.ld_unit_zero (S := S8x128x8x128) zero_offsets4_add, View.ld_unit_zero (S := S8x128) zero_offsets2_add]

/-- The printed index maps over the grid: channel block t / 16, row slab t % 16. -/
theorem index_maps1 : ∀ t : Fin cfg1.N,
    win1_0.index t (0 : Fin 4) = 0 ∧ win1_0.index t (1 : Fin 4) = t.val / 16
    ∧ win1_0.index t (2 : Fin 4) = t.val % 16 ∧ win1_0.index t (3 : Fin 4) = 0
    ∧ win1_1.index t (0 : Fin 2) = 0 ∧ win1_1.index t (1 : Fin 2) = t.val / 16
    ∧ win1_2.index t (0 : Fin 4) = 0 ∧ win1_2.index t (1 : Fin 4) = t.val / 16
    ∧ win1_2.index t (2 : Fin 4) = t.val % 16 ∧ win1_2.index t (3 : Fin 4) = 0 :=
  (by decide +kernel : ∀ t : Fin grid1.N, _)

/-- The big input's block at a point, index by index: channel block t / 16, row slab t % 16. -/
theorem big_block_apply (c : Dev nD) (t : Fin cfg1.N) (s : Fin 8) (k : Fin 128) (r : Fin 8) (w : Fin 128)
    (kk : Fin 512) (rr : Fin 128) (hk : kk.val = 128 * (t.val / 16) + k.val) (hr : rr.val = 8 * (t.val % 16) + r.val) :
    iblk1 (F := Ideal) V c 0 t (ix4 s k r w) = xarr1 V c (ix4 s kk rr w) := by
  obtain ⟨e0, e1, e2, e3, -⟩ := index_maps1 t
  show V c main_arg0 (((cfg1.win 0).blk t).view.emb (ix4 s k r w)) = V c main_arg0 (ix4 s kk rr w)
  congr 1
  funext a; apply Fin.ext
  match a with
  | ⟨0, _⟩ => show win1_0.index t (0 : Fin 4) * 8 + 1 * s.val = s.val; omega
  | ⟨1, _⟩ => show win1_0.index t (1 : Fin 4) * 128 + 1 * k.val = kk.val; omega
  | ⟨2, _⟩ => show win1_0.index t (2 : Fin 4) * 8 + 1 * r.val = rr.val; omega
  | ⟨3, _⟩ => show win1_0.index t (3 : Fin 4) * 128 + 1 * w.val = w.val; omega

/-- The vector's block at a point, index by index: channel block t / 16. -/
theorem vec_block_apply (c : Dev nD) (t : Fin cfg1.N) (s : Fin 8) (k : Fin 128)
    (kk : Fin 512) (hk : kk.val = 128 * (t.val / 16) + k.val) :
    iblk1 (F := Ideal) V c 1 t (ix2 s k) = yarr1 V c (ix2 s kk) := by
  obtain ⟨-, -, -, -, e0, e1, -⟩ := index_maps1 t
  show V c main_v19 (((cfg1.win 1).blk t).view.emb (ix2 s k)) = V c main_v19 (ix2 s kk)
  congr 1
  funext a; apply Fin.ext
  match a with
  | ⟨0, _⟩ => show win1_1.index t (0 : Fin 2) * 8 + 1 * s.val = s.val; omega
  | ⟨1, _⟩ => show win1_1.index t (1 : Fin 2) * 128 + 1 * k.val = kk.val; omega

/-- What the region leaves, as one function of the two arrays: the big input plus the vector at the sample and channel. -/
abbrev resFn1 (c : Dev nD) : S8x512x128x128.Idx → EReal :=
  fun i => xarr1 V c i + yarr1 V c (ix2 (n0 := 8) (n1 := 512) (i 0) (i 1))

/-- What a point writes back is its block of that function. -/
theorem flushed1_2_eq_block (c : Dev nD) (t : Fin cfg1.N) :
    (dat1 (F := Ideal) V c).flushed 2 t = ((cfg1.win 2).blk t).view.read (Elt Ideal) (resFn1 V c) := by
  show (cfg1.win 2).cut (grid1.coords t) ((dat1 (F := Ideal) V c).after 2 t) = _
  rw [after1_2, out1_2_eq_payload]
  funext j
  obtain ⟨s, k, r, w, rfl⟩ : ∃ (s : Fin 8) (k : Fin 128) (r : Fin 8) (w : Fin 128), j = ix4 s k r w := ⟨j 0, j 1, j 2, j 3, eq_ix4 j⟩
  have ht : t.val < 64 := lt_of_lt_of_eq t.isLt N_1
  obtain ⟨-, -, -, -, -, -, e0, e1, e2, e3⟩ := index_maps1 t
  have hemb : ((cfg1.win 2).blk t).view.emb (ix4 s k r w)
      = ix4 s (⟨128 * (t.val / 16) + k.val, by omega⟩ : Fin 512) (⟨8 * (t.val % 16) + r.val, by omega⟩ : Fin 128) w := by
    funext a; apply Fin.ext
    match a with
    | ⟨0, _⟩ => show win1_2.index t (0 : Fin 4) * 8 + 1 * s.val = s.val; omega
    | ⟨1, _⟩ => show win1_2.index t (1 : Fin 4) * 128 + 1 * k.val = 128 * (t.val / 16) + k.val; omega
    | ⟨2, _⟩ => show win1_2.index t (2 : Fin 4) * 8 + 1 * r.val = 8 * (t.val % 16) + r.val; omega
    | ⟨3, _⟩ => show win1_2.index t (3 : Fin 4) * 128 + 1 * w.val = w.val; omega
  show k1_pay1 (F := Ideal) (iblk1 V c 1 t) (iblk1 V c 0 t) (ix4 s k r w) = resFn1 V c (((cfg1.win 2).blk t).view.emb (ix4 s k r w))
  rw [hemb, add_payload_apply, big_block_apply V c t s k r w ⟨128 * (t.val / 16) + k.val, by omega⟩ ⟨8 * (t.val % 16) + r.val, by omega⟩ rfl rfl,
    vec_block_apply V c t s k ⟨128 * (t.val / 16) + k.val, by omega⟩ rfl]

/-- An index of the output array is in a point's block iff each coordinate is in the block's range on its axis. -/
theorem mem_out_block1 (t : Fin cfg1.N) (i : S8x512x128x128.Idx) :
    i ∈ ((cfg1.win 2).blk t).view.set ↔ ∀ a : Fin 4, win1_2.index t a * S8x128x8x128.size a ≤ (i a).val
      ∧ (i a).val < win1_2.index t a * S8x128x8x128.size a + S8x128x8x128.size a := by
  show i ∈ ((View.whole main_v20).slice (win1_2.rect t)).set ↔ _
  rw [View.set_slice_whole, Rect.mem_set_unit]
  exact Iff.rfl

/-- The blocks tile the output array: index (b, ch, h, w) is in the block of point 16 * (ch / 128) + h / 8. -/
theorem out_blocks_tile1 (i : S8x512x128x128.Idx) :
    ∃ t : Fin cfg1.N, (cfg1.win 2).flush t = true ∧ i ∈ ((cfg1.win 2).blk t).view.set := by
  have h0 : (i 0).val < 8 := (i 0).isLt
  have h1 : (i 1).val < 512 := (i 1).isLt
  have h2 : (i 2).val < 128 := (i 2).isLt
  have h3 : (i 3).val < 128 := (i 3).isLt
  obtain ⟨t, tv⟩ : ∃ t : Fin cfg1.N, t.val = 16 * ((i 1).val / 128) + (i 2).val / 8 :=
    ⟨⟨16 * ((i 1).val / 128) + (i 2).val / 8, by rw [show cfg1.N = 64 from N_1]; omega⟩, rfl⟩
  refine ⟨t, flush1_2 t, ?_⟩
  rw [mem_out_block1]
  obtain ⟨-, -, -, -, -, -, e0, e1, e2, e3⟩ := index_maps1 t
  intro a
  match a with
  | ⟨0, _⟩ => show win1_2.index t (0 : Fin 4) * 8 ≤ (i 0).val ∧ (i 0).val < win1_2.index t (0 : Fin 4) * 8 + 8; omega
  | ⟨1, _⟩ => show win1_2.index t (1 : Fin 4) * 128 ≤ (i 1).val ∧ (i 1).val < win1_2.index t (1 : Fin 4) * 128 + 128; omega
  | ⟨2, _⟩ => show win1_2.index t (2 : Fin 4) * 8 ≤ (i 2).val ∧ (i 2).val < win1_2.index t (2 : Fin 4) * 8 + 8; omega
  | ⟨3, _⟩ => show win1_2.index t (3 : Fin 4) * 128 ≤ (i 3).val ∧ (i 3).val < win1_2.index t (3 : Fin 4) * 128 + 128; omega

/-- The array the region leaves is that function. -/
theorem oarr1_eq_resFn (c : Dev nD) : oarr1 V c = resFn1 V c :=
  (dat1 (F := Ideal) V c).arrAt_eq_of_cover 2 (resFn1 V c) (fun t _ => flushed1_2_eq_block V c t) out_blocks_tile1

/-- The second region's output array, index by index. -/
theorem res_arr (c : Dev nD) (b : Fin 8) (ch : Fin 512) (h w : Fin 128) :
    oarr1 V c (ix4 b ch h w) = xarr1 V c (ix4 b ch h w) + yarr1 V c (ix2 b ch) := by
  rw [oarr1_eq_resFn]

end Cert.KernelIdeal.Hand

end
-- ==== Proof.RefSide.lean ====
/-
  The reference program read as three named pieces: the spatial mean of the input (a sum over the two spatial
  axes started from zero, divided by the plane's size), the chain of small host operations on the resulting
  8 x 512 array (carried as one opaque function of that array and the six small arguments), and the last step that
  spreads the chain's result back over the spatial plane and adds the input. The program's run ends with its
  result at the composition of the three; the last step read at an index is the input plus the chain's result
  at the sample and channel; the first step read at an index is the plane's double sum times 1 / 16384.
-/
import proofs.«167002_j68032281969033_1_alg».proof.Proof.Gen.ReferenceIdeal
import proofs.«167002_j68032281969033_1_alg».proof.Proof.Gen.ReferenceIdeal.Run
import proofs.«167002_j68032281969033_1_alg».proof.Proof.Gen.ReferenceIdeal.Read
import proofs.«167002_j68032281969033_1_alg».proof.Proof.Spec
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.IdealHost

noncomputable section

open scoped BigOperators

namespace Cert.ReferenceIdeal.Hand

open Cert.ReferenceIdeal Cert.ReferenceIdeal.Gen Idealize.ShloMosaic Idealize.ShloMosaic.TcCoe Idealize.SL.Sem Idealize.ShloMosaic.ValueIdx

/-- The spatial mean as the reference computes it: the sum over the two spatial axes from the initial value
    zero, divided elementwise by the constant 16384. -/
def meanR (x : FVec Ideal S8x512x128x128 .f32) : FVec Ideal S8x512 .f32 :=
  Host.divf (Host.reduceAdd x (constant S_ .f32 0x00000000#32) reducesTo_S8x512x128x128_S8x512_d2_3 h_S_) (broadcastInDim S8x512 ![] bcast_S_S8x512 (constant S_ .f32 0x46800000#32))

/-- The chain of host operations between the mean and the final broadcast, as one function of the mean and the
    six small arguments. -/
def tailR (y0 : FVec Ideal S8x512 .f32) (a1 : FVec Ideal S128x512 .f32) (a2 : FVec Ideal S512x128 .f32) (a3 a4 a5 a6 : FVec Ideal S512 .f32) : FVec Ideal S8x512 .f32 :=
  minimumf (broadcastInDim S8x512 ![] bcast_S_S8x512 (id (constant S_ .f32 0x40C00000#32))) (maximumf (broadcastInDim S8x512 ![] bcast_S_S8x512 (id (constant S_ .f32 0x00000000#32))) (addf (mulf (mulf (subf (Host.dotGeneral dot_S8x128_S512x128_S8x512_1_1_0_0_n_n none (minimumf (broadcastInDim S8x128 ![] bcast_S_S8x128 (id (constant S_ .f32 0x40C00000#32))) (maximumf (broadcastInDim S8x128 ![] bcast_S_S8x128 (id (constant S_ .f32 0x00000000#32))) (Host.dotGeneral dot_S8x512_S128x512_S8x128_1_1_0_0_n_n none y0 a1))) a2) (broadcastInDim S8x512 ![0, 1] bcast_S1x512_S8x512_0_1 (broadcastInDim S1x512 ![1] bcast_S512_S1x512_1 a5))) (broadcastInDim S8x512 ![0, 1] bcast_S1x512_S8x512_0_1 (broadcastInDim S1x512 ![1] bcast_S512_S1x512_1 (Host.rsqrt (addf a6 (broadcastInDim S512 ![] bcast_S_S512 (constant S_ .f32 0x3727C5AC#32))))))) (broadcastInDim S8x512 ![0, 1] bcast_S1x512_S8x512_0_1 (broadcastInDim S1x512 ![1] bcast_S512_S1x512_1 a3))) (broadcastInDim S8x512 ![0, 1] bcast_S1x512_S8x512_0_1 (broadcastInDim S1x512 ![1] bcast_S512_S1x512_1 a4))))

/-- The last step: the 8 x 512 array spread over the spatial plane, added to the input. -/
def outR (x : FVec Ideal S8x512x128x128 .f32) (y : FVec Ideal S8x512 .f32) : FVec Ideal S8x512x128x128 .f32 :=
  addf x (broadcastInDim S8x512x128x128 ![0, 1, 2, 3] bcast_S8x512x1x1_S8x512x128x128_0_1_2_3 (broadcastInDim S8x512x1x1 ![0, 1] bcast_S8x512_S8x512x1x1_0_1 y))

/-- The reference's run in the three pieces: every weakly fair execution ends with the result at the last step
    of the chain of the mean, and the seven arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = outR (m ((c.tc : Thread nD τ).loc main_arg0)) (tailR (meanR (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.ReferenceIdeal.Value.run (F := Ideal) m ρ

/-- The last step read at an index: the input there plus the 8 x 512 array at the sample and channel (the two
    broadcasts keep the first two coordinates and put 0 on the two unit axes). -/
theorem outR_apply (x : FVec Ideal S8x512x128x128 .f32) (y : FVec Ideal S8x512 .f32) (b : Fin 8) (ch : Fin 512) (h w : Fin 128) :
    outR x y (ix4 b ch h w) = x (ix4 b ch h w) + y (ix2 b ch) := by
  unfold outR
  rw [addf_apply,
    broadcastInDim_apply _ bcast_S8x512x1x1_S8x512x128x128_0_1_2_3 _ (ix4 b ch h w)
      (ix4 (n2 := 1) (n3 := 1) b ch ⟨0, Nat.one_pos⟩ ⟨0, Nat.one_pos⟩) (fun a => match a with
        | ⟨0, _⟩ => by show b.val = if (8 : Nat) = 1 then 0 else b.val; rw [if_neg (by decide)]
        | ⟨1, _⟩ => by show ch.val = if (512 : Nat) = 1 then 0 else ch.val; rw [if_neg (by decide)]
        | ⟨2, _⟩ => by show 0 = if (1 : Nat) = 1 then 0 else h.val; rw [if_pos rfl]
        | ⟨3, _⟩ => by show 0 = if (1 : Nat) = 1 then 0 else w.val; rw [if_pos rfl]),
    broadcastInDim_apply _ bcast_S8x512_S8x512x1x1_0_1 y _ (ix2 b ch) (fun a => match a with
        | ⟨0, _⟩ => by show b.val = if (8 : Nat) = 1 then 0 else b.val; rw [if_neg (by decide)]
        | ⟨1, _⟩ => by show ch.val = if (512 : Nat) = 1 then 0 else ch.val; rw [if_neg (by decide)])]

/-- An index of the input drops, with its two spatial coordinates removed, to (b, ch) exactly when its first
    two coordinates are b and ch. -/
theorem drop_eq_ix2_iff (i : S8x512x128x128.Idx) (b : Fin 8) (ch : Fin 512) :
    reducesTo_S8x512x128x128_S8x512_d2_3.drop i = ix2 b ch ↔ i 0 = b ∧ i 1 = ch := by
  constructor
  · intro e
    exact ⟨Fin.ext (congrArg (fun j : S8x512.Idx => (j 0).val) e), Fin.ext (congrArg (fun j : S8x512.Idx => (j 1).val) e)⟩
  · rintro ⟨rfl, rfl⟩
    funext a
    match a with
    | ⟨0, _⟩ => rfl
    | ⟨1, _⟩ => rfl

/-- The sum over the indices of the input that drop to (b, ch) is the double sum over the spatial plane of that
    sample and channel: such an index is its two spatial coordinates, and every pair of them occurs once. -/
theorem sum_plane (x : S8x512x128x128.Idx → EReal) (b : Fin 8) (ch : Fin 512) :
    ∑ i ∈ Finset.univ.filter (fun i => reducesTo_S8x512x128x128_S8x512_d2_3.drop i = ix2 b ch), x i
      = ∑ h : Fin 128, ∑ w : Fin 128, x (ix4 b ch h w) := by
  rw [← Fintype.sum_prod_type' (fun (h w : Fin 128) => x (ix4 b ch h w))]
  refine Finset.sum_nbij' (fun i => (i 2, i 3)) (fun p => ix4 b ch p.1 p.2) (fun _ _ => Finset.mem_univ _)
    (fun p _ => ?_) (fun i hi => ?_) (fun _ _ => rfl) (fun i hi => ?_)
  · rw [Finset.mem_filter, drop_eq_ix2_iff]; exact ⟨Finset.mem_univ _, rfl, rfl⟩
  · obtain ⟨e0, e1⟩ := (drop_eq_ix2_iff i b ch).1 (Finset.mem_filter.1 hi).2
    subst e0 e1; exact (eq_ix4 i).symm
  · obtain ⟨e0, e1⟩ := (drop_eq_ix2_iff i b ch).1 (Finset.mem_filter.1 hi).2
    subst e0 e1; exact congrArg x (eq_ix4 i)

/-- The reference's mean read at an index: the initial value zero drops out of the sum, the sum over the indices
    that drop to (b, ch) is the plane's double sum, and dividing by 16384 is multiplying by 1 / 16384 on every
    extended real. -/
theorem meanR_apply (x : FVec Ideal S8x512x128x128 .f32) (b : Fin 8) (ch : Fin 512) :
    meanR x (ix2 b ch) = Cert.Hand.Spec.meanC x b ch := by
  unfold meanR Cert.Hand.Spec.meanC
  rw [hostDivf_apply, hostReduceAdd_apply, broadcastInDim_scalar_apply, constant_apply, constant_apply,
    Cert.Hand.Spec.ofBits_zero, Cert.Hand.Spec.ofBits_16384, Ideal.div_coe (by norm_num : (16384 : ℝ) ≠ 0)]
  unfold Ideal.hostReduceAdd
  rw [zero_add, sum_plane]

end Cert.ReferenceIdeal.Hand

end
-- ==== Proof.Assemble.lean ====
/-
  The two idealized programs compute one function. The kernel program's result is, index by index, its input
  plus a per-(sample, channel) vector: the chain of small host operations applied to the first region's output,
  which is the plane's mean (the sixteen slab sums of a channel block, times 2^-14). The reference's result is its
  input plus the same chain applied to its own mean (the plane's sum divided by 16384). The two means are one
  function — a sum may be grouped in any way, and dividing by 2^14 is multiplying by 2^-14 on every extended
  real — and the chain is carried as one function, never opened.
-/
import proofs.«167002_j68032281969033_1_alg».proof.Defs
import proofs.«167002_j68032281969033_1_alg».proof.Proof.KI.Run
import proofs.«167002_j68032281969033_1_alg».proof.Proof.K.Run
import proofs.«167002_j68032281969033_1_alg».proof.Proof.Val0b
import proofs.«167002_j68032281969033_1_alg».proof.Proof.Val1
import proofs.«167002_j68032281969033_1_alg».proof.Proof.RefSide
import proofs.«167002_j68032281969033_1_alg».proof.Proof.Gen.Pre_finite_inputs
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem

/-- The chain of host operations between the two regions, as one function of the first region's output and the
    six small arguments. -/
def tailK (y0 : FVec Ideal S8x512 .f32) (a1 : FVec Ideal S128x512 .f32) (a2 : FVec Ideal S512x128 .f32) (a3 a4 a5 a6 : FVec Ideal S512 .f32) : FVec Ideal S8x512 .f32 :=
  minimumf (broadcastInDim S8x512 ![] bcast_S_S8x512 (id (constant S_ .f32 0x40C00000#32))) (maximumf (broadcastInDim S8x512 ![] bcast_S_S8x512 (id (constant S_ .f32 0x00000000#32))) (addf (mulf (mulf (subf (Host.dotGeneral dot_S8x128_S512x128_S8x512_1_1_0_0_n_n none (minimumf (broadcastInDim S8x128 ![] bcast_S_S8x128 (id (constant S_ .f32 0x40C00000#32))) (maximumf (broadcastInDim S8x128 ![] bcast_S_S8x128 (id (constant S_ .f32 0x00000000#32))) (Host.dotGeneral dot_S8x512_S128x512_S8x128_1_1_0_0_n_n none y0 a1))) a2) (broadcastInDim S8x512 ![0, 1] bcast_S1x512_S8x512_0_1 (broadcastInDim S1x512 ![1] bcast_S512_S1x512_1 a5))) (broadcastInDim S8x512 ![0, 1] bcast_S1x512_S8x512_0_1 (broadcastInDim S1x512 ![1] bcast_S512_S1x512_1 (Host.rsqrt (addf a6 (broadcastInDim S512 ![] bcast_S_S512 (constant S_ .f32 0x3727C5AC#32))))))) (broadcastInDim S8x512 ![0, 1] bcast_S1x512_S8x512_0_1 (broadcastInDim S1x512 ![1] bcast_S512_S1x512_1 a3))) (broadcastInDim S8x512 ![0, 1] bcast_S1x512_S8x512_0_1 (broadcastInDim S1x512 ![1] bcast_S512_S1x512_1 a4))))

/-- It is the reference's chain: the same operations on the same shapes. -/
theorem tailK_eq : tailK = Cert.ReferenceIdeal.Hand.tailR := rfl

variable (m : (ℓ : Loc nD τ sig) → Buf (Elt Ideal) ℓ) (outs : Outs (F := Ideal))

set_option maxHeartbeats 4000000 in
/-- What the second region finds in the 8 x 512 vector: the chain of what the first region left and the arguments. -/
theorem V5_v19 (c : Dev nD) :
    V5 m outs c main_v19 = tailK (V1 m outs c main_v0) (V1 m outs c main_arg1) (V1 m outs c main_arg2) (V1 m outs c main_arg3)
      (V1 m outs c main_arg4) (V1 m outs c main_arg5) (V1 m outs c main_arg6) := by
  dsimp only [V5, V4, V3, V2]
  after_results_simp
  rfl

/-- The first region's output as the later items find it, and the arguments as launched. -/
theorem V1_v0 (c : Dev nD) : V1 m outs c main_v0 = outs 1 main_v0 c :=
  Function.update_self (β := fun b : DevRef τ sig => Buf (Elt Ideal) (((c : Thread nD τ)).1, b)) (Proc.devRef .tc main_v0) (outs 1 main_v0 c) (V0 m c)

theorem V5_arg0 (c : Dev nD) : V5 m outs c main_arg0 = m ((c : Thread nD τ).loc main_arg0) :=
  (V5_of m outs c main_arg0 (by decide)).trans <| (V4_of m outs c main_arg0 (by decide)).trans <| (V3_of m outs c main_arg0 (by decide)).trans <| (V2_of m outs c main_arg0 (by decide)).trans <| (V1_of m outs c main_arg0 (by decide)).trans rfl

/-- The program's result and its big input, each at its literal type. -/
abbrev resK (c : Dev nD) : S8x512x128x128.Idx → EReal := outsF m 6 main_v20 c
abbrev xK (c : Dev nD) : S8x512x128x128.Idx → EReal := m ((c : Thread nD τ).loc main_arg0)

/-- The kernel program's result, index by index. -/
theorem result_apply (c : Dev nD) (b : Fin 8) (ch : Fin 512) (h w : Fin 128) :
    resK m c (ix4 b ch h w)
      = xK m c (ix4 b ch h w)
        + Cert.ReferenceIdeal.Hand.tailR (Cert.ReferenceIdeal.Hand.meanR (m ((c : Thread nD τ).loc main_arg0)))
            (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6)) (ix2 b ch) := by
  have hmean : (outsA m 1 main_v0 c : S8x512.Idx → EReal) = Cert.ReferenceIdeal.Hand.meanR (m ((c : Thread nD τ).loc main_arg0)) := by
    funext j
    obtain ⟨p, q, rfl⟩ : ∃ (p : Fin 8) (q : Fin 512), j = ix2 p q := ⟨j 0, j 1, eq_ix2 j⟩
    rw [outsA_v0, Cert.ReferenceIdeal.Hand.meanR_apply]
    exact mean_arr (Ve0 m) c p q
  show (outsF m 6 main_v20 c : S8x512x128x128.Idx → EReal) (ix4 b ch h w) = _
  rw [outsF_six]
  refine (res_arr (Ve1 m (outsA m)) c b ch h w).trans ?_
  show xarr1 (Ve1 m (outsA m)) c (ix4 b ch h w) + yarr1 (Ve1 m (outsA m)) c (ix2 b ch) = _
  have e0 : xarr1 (Ve1 m (outsA m)) c = xK m c := V5_arg0 m (outsA m) c
  have e1 : yarr1 (Ve1 m (outsA m)) c = Cert.ReferenceIdeal.Hand.tailR (Cert.ReferenceIdeal.Hand.meanR (m ((c : Thread nD τ).loc main_arg0)))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
    show V5 m (outsA m) c main_v19 = _
    rw [V5_v19, V1_v0, hmean, tailK_eq]
    rfl
  rw [e0, e1]

end Cert.KernelIdeal.Hand

namespace Cert.Proof.Hand

open Idealize.ShloMosaic Idealize.ShloMosaic.TcCoe Idealize.ShloMosaic.ValueIdx Idealize.SL.Sem

theorem frame_k : Cert.frame_Kernel := fun m ρ _ => Cert.Kernel.Hand.frame_main m ρ
theorem frame_ki : Cert.frame_KernelIdeal := fun m ρ _ => Cert.KernelIdeal.Hand.frame_main m ρ
theorem frame_ri : Cert.frame_ReferenceIdeal := fun m ρ _ =>
  (θ_run Cert.ReferenceIdeal.defs _ _).mono (fun _ h c => (h c).2) (Cert.ReferenceIdeal.Hand.run m ρ)

/-- Both idealized programs run, from memories agreeing on the arguments, to equal results. -/
theorem algebraic : Cert.algebraic_KernelIdeal_ReferenceIdeal := by
  intro m ρ m' ρ' _ hagree
  refine ⟨fun c => Cert.KernelIdeal.Hand.outsF m 6 Cert.KernelIdeal.main_v20 c, Cert.KernelIdeal.Hand.run_main m ρ, ?_⟩
  refine (θ_run Cert.ReferenceIdeal.defs _ _).mono (fun _ h c => ⟨(h c).1.trans ?_, (h c).2⟩) (Cert.ReferenceIdeal.Hand.run m' ρ')
  rw [(hagree c).1, (hagree c).2.1, (hagree c).2.2.1, (hagree c).2.2.2.1, (hagree c).2.2.2.2.1, (hagree c).2.2.2.2.2.1, (hagree c).2.2.2.2.2.2]
  funext i
  obtain ⟨b, ch, h, w, rfl⟩ : ∃ (b : Fin 8) (ch : Fin 512) (h w : Fin 128), i = ix4 b ch h w := ⟨i 0, i 1, i 2, i 3, eq_ix4 i⟩
  rw [Cert.ReferenceIdeal.Hand.outR_apply]
  exact (Cert.KernelIdeal.Hand.result_apply m c b ch h w).symm

end Cert.Proof.Hand

end
-- ==== Proof.lean ====
/-
  The certificate's five claims, assembled. The kernel program is two kernel regions among host operations: the
  first sums the input over its two spatial axes, slab by slab, into an accumulator and writes out the sum times
  2^-14 (the spatial mean); host operations turn the 8 x 512 means into an 8 x 512 correction; the second region
  adds the correction, broadcast over the plane, to the input. The reference does the same with one whole sum
  divided by 16384. Each program's frame is its run with the result dropped; the idealization rewrote nothing, so
  there is nothing to preserve; and at the ideal instance the two results are one function of the arguments
  (Proof/Assemble.lean).
-/
import proofs.«167002_j68032281969033_1_alg».proof.Defs
import proofs.«167002_j68032281969033_1_alg».proof.Proof.Gen.Kernel
import proofs.«167002_j68032281969033_1_alg».proof.Proof.Gen.KernelIdeal
import proofs.«167002_j68032281969033_1_alg».proof.Proof.Gen.ReferenceIdeal
import proofs.«167002_j68032281969033_1_alg».proof.Proof.Gen.Pre_finite_inputs
import proofs.«167002_j68032281969033_1_alg».proof.Proof.Assemble

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Hand.frame_k, Cert.Proof.Hand.frame_ki, Cert.Proof.Hand.frame_ri, trivial, Cert.Proof.Hand.algebraic⟩

end Cert.Proof

end
